-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel

variable [Facts]

def fn {F : FTy → Type} [FloatOps F] (main_arg0 : FVec F S1000000x128 .f32) (main_arg1 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  main_v3
-- ==== Kernel.lean ====
abbrev S1000000x128 : Shape := ⟨2, ![1000000, 128]⟩
abbrev S1000000 : Shape := ⟨1, ![1000000]⟩
abbrev S200x1x5000 : Shape := ⟨3, ![200, 1, 5000]⟩
abbrev S2x1024x256 : Shape := ⟨3, ![2, 1024, 256]⟩
abbrev S5000x128 : Shape := ⟨2, ![5000, 128]⟩
abbrev S1x1x5000 : Shape := ⟨3, ![1, 1, 5000]⟩
abbrev S1x1024x256 : Shape := ⟨3, ![1, 1024, 256]⟩
abbrev S5000x256 : Shape := ⟨2, ![5000, 256]⟩
abbrev S5000x1 : Shape := ⟨2, ![5000, 1]⟩
abbrev S5000x127 : Shape := ⟨2, ![5000, 127]⟩
abbrev S1x5000 : Shape := ⟨2, ![1, 5000]⟩
abbrev S1x1024 : Shape := ⟨2, ![1, 1024]⟩
abbrev S5000x1024 : Shape := ⟨2, ![5000, 1024]⟩
abbrev S1024x256 : Shape := ⟨2, ![1024, 256]⟩
abbrev S1000x128 : Shape := ⟨2, ![1000, 128]⟩
abbrev S1000x1 : Shape := ⟨2, ![1000, 1]⟩
abbrev S1000 : Shape := ⟨1, ![1000]⟩
abbrev S_ : Shape := ⟨0, ![]⟩
abbrev S128 : Shape := ⟨1, ![128]⟩
abbrev S1x128 : Shape := ⟨2, ![1, 128]⟩

abbrev nBuf : Space → Nat
  | .hbm => 43
  | .vmem => 7
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S200x1x5000, .i32⟩
  | .hbm, ⟨3, _⟩ => ⟨S2x1024x256, .f32⟩
  | .hbm, ⟨4, _⟩ => ⟨S1x1024x256, .f32⟩
  | .hbm, ⟨5, _⟩ => ⟨S1024x256, .f32⟩
  | .hbm, ⟨6, _⟩ => ⟨S1x1024x256, .f32⟩
  | .hbm, ⟨7, _⟩ => ⟨S1024x256, .f32⟩
  | .hbm, ⟨8, _⟩ => ⟨S1024x256, .f32⟩
  | .hbm, ⟨9, _⟩ => ⟨S1000x128, .f32⟩
  | .hbm, ⟨10, _⟩ => ⟨S1000x1, .f32⟩
  | .hbm, ⟨11, _⟩ => ⟨S1000, .f32⟩
  | .hbm, ⟨12, _⟩ => ⟨S1000x1, .f32⟩
  | .hbm, ⟨13, _⟩ => ⟨S1000x128, .f32⟩
  | .hbm, ⟨14, _⟩ => ⟨S1000x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1000x128, .f32⟩
  | .hbm, ⟨23, _⟩ => ⟨S1000x128, .f32⟩
  | .hbm, ⟨24, _⟩ => ⟨S1000x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S1x1x5000, .i32⟩
  | .local _ .vmem, ⟨3, _⟩ => ⟨S1x1x5000, .i32⟩
  | .local _ .vmem, ⟨4, _⟩ => ⟨S1x1024x256, .f32⟩
  | .local _ .vmem, ⟨5, _⟩ => ⟨S1x1024x256, .f32⟩
  | .local _ .vmem, ⟨6, _⟩ => ⟨S5000x256, .bf16⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_cst_3 : Ref sig .tc := ⟨.hbm, 32, rfl⟩
abbrev main_call0_v12 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 100], ![false, false]⟩

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1000000_S200x1x5000 : S1000000.ShapeCasts S200x1x5000
  inb_S1x1024x256_S1x1024x256_0_0_0 : ∀ a, (![0, 0, 0] : Fin 3 → Nat) a + S1x1024x256.size a ≤ S1x1024x256.size a
  h_S1x1024x256 : 0 < S1x1024x256.numel
  inb_S5000x256_S5000x1_0_128 : ∀ a, (![0, 128] : Fin 2 → Nat) a + S5000x1.size a ≤ S5000x256.size a
  h_S5000x1 : 0 < S5000x1.numel
  shapeCasts_S5000x1_S5000x1 : S5000x1.ShapeCasts S5000x1
  packedbf16_S5000x256_S5000x1_0_128 : (Rect.unit (s := S5000x256) ![0, 128] S5000x1.size inb_S5000x256_S5000x1_0_128).PackedRows (EltTy.packing .bf16)
  inb_S5000x256_S5000x127_0_129 : ∀ a, (![0, 129] : Fin 2 → Nat) a + S5000x127.size a ≤ S5000x256.size a
  h_S5000x127 : 0 < S5000x127.numel
  shapeCasts_S5000x127_S5000x127 : S5000x127.ShapeCasts S5000x127
  packedbf16_S5000x256_S5000x127_0_129 : (Rect.unit (s := S5000x256) ![0, 129] S5000x127.size inb_S5000x256_S5000x127_0_129).PackedRows (EltTy.packing .bf16)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x256_S5000x128_0_0 : ∀ a, (![0, 0] : Fin 2 → Nat) a + S5000x128.size a ≤ S5000x256.size a
  shapeCasts_S5000x128_S5000x128 : S5000x128.ShapeCasts S5000x128
  packedbf16_S5000x256_S5000x128_0_0 : (Rect.unit (s := S5000x256) ![0, 0] S5000x128.size inb_S5000x256_S5000x128_0_0).PackedRows (EltTy.packing .bf16)
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x1x5000 : S1x1x5000.ShapeCasts S1x1x5000
  shapeCasts_S1x1x5000_S1x5000 : S1x1x5000.ShapeCasts S1x5000
  transposes_S1x5000_p1_0_S5000x1 : S1x5000.Transposes [1, 0] S5000x1
  iota_S1x1024_d1_w32 : S1x1024.Iotas .tc 32 [1]
  broadcasts_S5000x1_S5000x1024 : S5000x1.Broadcasts S5000x1024
  broadcasts_S1x1024_S5000x1024 : S1x1024.Broadcasts S5000x1024
  natLt_1_32 : 1 < 32
  inb_S5000x256_S5000x256_0_0 : ∀ a, (![0, 0] : Fin 2 → Nat) a + S5000x256.size a ≤ S5000x256.size a
  h_S5000x256 : 0 < S5000x256.numel
  shapeCasts_S1x1024x256_S1x1024x256 : S1x1024x256.ShapeCasts S1x1024x256
  shapeCasts_S1024x256_S1x1024x256 : S1024x256.ShapeCasts S1x1024x256
  slices_S2x1024x256_S1x1024x256_0_0_0 : S2x1024x256.Slices ![0, 0, 0] S1x1024x256
  shapeCasts_S1x1024x256_S1024x256 : S1x1024x256.ShapeCasts S1024x256
  slices_S2x1024x256_S1x1024x256_1_0_0 : S2x1024x256.Slices ![1, 0, 0] S1x1024x256
  slices_S1024x256_S1000x128_0_0 : S1024x256.Slices ![0, 0] S1000x128
  slices_S1024x256_S1000x1_0_128 : S1024x256.Slices ![0, 128] S1000x1
  shapeCasts_S1000x1_S1000 : S1000x1.ShapeCasts S1000
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  reducesTo_S1000x128_S128_d0 : S1000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S1000x128_0_1 : S1x128.BroadcastsInDim S1000x128 (![0, 1] : Fin 2 → Fin S1000x128.rank)
  bcast_S_S128 : S_.BroadcastsInDim S128 (![] : Fin 0 → Fin S128.rank)
  reducesTo_S128_S_d0 : S128.ReducesTo [0] S_
  dot_S5000x1024_S5000x256_S1024x256_0_0_1_1_n_n_wf : DotDims.WF S5000x1024 S5000x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5000.size a ≤ S200x1x5000.size a
  hwx0_1 : ∀ i : grid0.Coords, EltTy.bits .i32 = 32 ∨ (Rect.block (s := S200x1x5000) S1x1x5000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)

variable [Facts₀]

def dot_S5000x1024_S5000x256_S1024x256_0_0_1_1_n_n : DotDims S5000x1024 S5000x256 S1024x256 where
  lhsContracting := [0]
  rhsContracting := [0]
  lhsNonContracting := [1]
  rhsNonContracting := [1]
  lhsBatch := []
  rhsBatch := []
  wf := dot_S5000x1024_S5000x256_S1024x256_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S_ : Shape := ⟨0, ![]⟩
abbrev S1000x128 : Shape := ⟨2, ![1000, 128]⟩
abbrev S1000000x1 : Shape := ⟨2, ![1000000, 1]⟩
abbrev S1000 : Shape := ⟨1, ![1000]⟩
abbrev S1000x1 : Shape := ⟨2, ![1000, 1]⟩
abbrev S128 : Shape := ⟨1, ![128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S_, .f32⟩
  | .hbm, ⟨3, _⟩ => ⟨S1000x128, .f32⟩
  | .hbm, ⟨4, _⟩ => ⟨S1000000x1, .i32⟩
  | .hbm, ⟨5, _⟩ => ⟨S1000x128, .f32⟩
  | .hbm, ⟨6, _⟩ => ⟨S_, .f32⟩
  | .hbm, ⟨7, _⟩ => ⟨S1000000, .f32⟩
  | .hbm, ⟨8, _⟩ => ⟨S_, .f32⟩
  | .hbm, ⟨9, _⟩ => ⟨S1000, .f32⟩
  | .hbm, ⟨10, _⟩ => ⟨S1000000x1, .i32⟩
  | .hbm, ⟨11, _⟩ => ⟨S1000, .f32⟩
  | .hbm, ⟨12, _⟩ => ⟨S1000x1, .f32⟩
  | .hbm, ⟨13, _⟩ => ⟨S1000x128, .f32⟩
  | .hbm, ⟨14, _⟩ => ⟨S1000x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1000x128, .f32⟩
  | .hbm, ⟨23, _⟩ => ⟨S1000x128, .f32⟩
  | .hbm, ⟨24, _⟩ => ⟨S1000x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_cst_3 : Ref sig .tc := ⟨.hbm, 32, rfl⟩
abbrev main_call0_v12 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_cst_3 : Ref sig .tc := ⟨.hbm, 40, rfl⟩
abbrev main_v12 : Ref sig .tc := ⟨.hbm, 41, rfl⟩
abbrev main_v13 : Ref sig .tc := ⟨.hbm, 42, rfl⟩

abbrev nD : Nat := 1
abbrev τ : Topo := Topo.v7x

variable {F : FTy → Type} [FloatOps F]

class Facts₀ : Prop where
  bcast_S_S1000x128 : S_.BroadcastsInDim S1000x128 (![] : Fin 0 → Fin S1000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  reducesTo_S1000x128_S128_d0 : S1000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S1000x128_0_1 : S1x128.BroadcastsInDim S1000x128 (![0, 1] : Fin 2 → Fin S1000x128.rank)
  bcast_S_S128 : S_.BroadcastsInDim S128 (![] : Fin 0 → Fin S128.rank)
  reducesTo_S128_S_d0 : S128.ReducesTo [0] S_
  scatter_S1000x128_S1000000x1_S1000000x128_1_0_0_1_wf : ScatterDims.WF S1000x128 S1000000x1 S1000000x128 [1] [0] [0] 1
  scatter_S1000_S1000000x1_S1000000_n_0_0_1_wf : ScatterDims.WF S1000 S1000000x1 S1000000 [] [0] [0] 1

variable [Facts₀]

def scatter_S1000x128_S1000000x1_S1000000x128_1_0_0_1 : ScatterDims S1000x128 S1000000x1 S1000000x128 where
  updateWindowDims := [1]
  insertedWindowDims := [0]
  scatterDimsToOperandDims := [0]
  indexVectorDim := 1
  wf := scatter_S1000x128_S1000000x1_S1000000x128_1_0_0_1_wf
def scatter_S1000_S1000000x1_S1000000_n_0_0_1 : ScatterDims S1000 S1000000x1 S1000000 where
  updateWindowDims := []
  insertedWindowDims := [0]
  scatterDimsToOperandDims := [0]
  indexVectorDim := 1
  wf := scatter_S1000_S1000000x1_S1000000_n_0_0_1_wf

class Facts : Prop extends Facts₀ where

variable [Facts]
-- ==== Proof.KerPieces.lean ====
import proofs.«420075_j88776974008411_3_alg».proof.Proof.Gen.KernelIdeal.Frame
import Idealize.ShloMosaic.Lib.Pipeline.Value
import Idealize.ShloMosaic.Lib.ValueIdx
import Idealize.ShloMosaic.Lib.Tactic
import Idealize.ShloMosaic.Lib.WritesUnit

/-!
# What one grid point leaves behind

The kernel body keeps two things between grid points: the `1 × 1024 × 256` accumulator block and the
`5000 × 256` right operand of its matrix product. At a point that starts a half (case A) it zeroes the
accumulator, writes the ones column `128` and the zero columns `129 … 255` of the right operand, and then does
what every point does (case B): overwrite columns `0 … 127` of the right operand with the point's block of rows,
and add the product of the one-hot matrix with the whole right operand to the accumulator.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KerValue

open Cert.KernelIdeal Cert.KernelIdeal.Gen

variable {F : FTy → Type} [FloatOps F]

/-- Columns `128 … 255` as a point of case A writes them: ones in column `128`, zeros beyond (columns `< 128`
    are given the same zero here; every use overwrites them). -/
def onesZeros : Vec F S5000x256 .bf16 :=
  fun y => if (y 1).val = 128 then (Scalar.ofBits .bf16 0x3F80#16 : F .bf16) else (Scalar.ofBits .bf16 0x0000#16 : F .bf16)

/-- The right operand `xs` with its columns `0 … 127` overwritten by the block of rows `x` (changed to the
    narrower format). -/
def rhsOver (x : Vec F S5000x128 .f32) (xs : Vec F S5000x256 .bf16) : Vec F S5000x256 .bf16 :=
  fun y => if h : (y 1).val < 128 then
      k0_pay4 x (ix2 (⟨(y 0).val, (y 0).isLt⟩ : Fin 5000) (⟨(y 1).val, h⟩ : Fin 128))
    else xs y

/-- The right operand of a point whose block of rows is `x`: the rows, the ones column, zeros. -/
def rhsOf (x : Vec F S5000x128 .f32) : Vec F S5000x256 .bf16 := rhsOver x onesZeros

/-- Overwriting the row columns forgets the rows that were there. -/
theorem rhsOver_rhsOf (x x' : Vec F S5000x128 .f32) : rhsOver x (rhsOf x') = rhsOf x := by
  funext y
  unfold rhsOf rhsOver
  by_cases h : (y 1).val < 128
  · simp only [dif_pos h]
  · simp only [dif_neg h]

/-! ## The right operand's stores read back at one index -/

theorem hz2 : (![0, 0] : Fin 2 → Nat) = fun _ => 0 := funext fun a => by fin_cases a <;> rfl
theorem hz3 : (![0, 0, 0] : Fin 3 → Nat) = fun _ => 0 := funext fun a => by fin_cases a <;> rfl

/-- The three stores of a point that starts a half, read back at one index: the rows `w` under columns `< 128`,
    the ones at column `128`, the zeros beyond — whatever the buffer held before. -/
theorem read_rows_ones_zeros (v : View sig .tc .vmem S5000x256 .bf16) (f : v.ty.Contents (Elt F))
    (w : Vec F S5000x128 .bf16) (y : S5000x256.Idx) :
    v.read (Elt F) (v.writes (Elt F) f
      [⟨Rect.unit ![0, 0] S5000x128.size inb_S5000x256_S5000x128_0_0, w⟩,
       ⟨Rect.unit ![0, 129] S5000x127.size inb_S5000x256_S5000x127_0_129, k0_pay3⟩,
       ⟨Rect.unit ![0, 128] S5000x1.size inb_S5000x256_S5000x1_0_128, k0_pay2⟩]) y
      = if h : (y 1).val < 128 then w (ix2 (⟨(y 0).val, (y 0).isLt⟩ : Fin 5000) (⟨(y 1).val, h⟩ : Fin 128))
        else onesZeros y := by
  have hy1 : (y 1).val < 256 := (y 1).isLt
  by_cases h : (y 1).val < 128
  · rw [dif_pos h]
    exact View.read_writes_cons_unit_of_mem v f inb_S5000x256_S5000x128_0_0 w _ y
      (ix2 (⟨(y 0).val, (y 0).isLt⟩ : Fin 5000) (⟨(y 1).val, h⟩ : Fin 128)) rfl
      (Fin.forall_fin_two.mpr ⟨(Nat.zero_add _).symm, (Nat.zero_add _).symm⟩)
  · rw [dif_neg h]
    rw [View.read_writes_cons_unit_of_not_mem v f inb_S5000x256_S5000x128_0_0 w _ y rfl (1 : Fin 2)
      (Or.inr (by show 0 + 128 ≤ (y 1).val; omega))]
    by_cases h' : (y 1).val = 128
    · rw [View.read_writes_cons_unit_of_not_mem v f inb_S5000x256_S5000x127_0_129 k0_pay3 _ y rfl (1 : Fin 2)
        (Or.inl (by show (y 1).val < 129; omega))]
      rw [View.read_writes_cons_unit_of_mem v f inb_S5000x256_S5000x1_0_128 k0_pay2 [] y
        (ix2 (⟨(y 0).val, (y 0).isLt⟩ : Fin 5000) (⟨0, Nat.one_pos⟩ : Fin 1)) rfl
        (Fin.forall_fin_two.mpr ⟨(Nat.zero_add _).symm, by show (y 1).val = 128 + 0; omega⟩)]
      unfold k0_pay2 onesZeros
      rw [if_pos h', shapeCast_self]
      rfl
    · rw [View.read_writes_cons_unit_of_mem v f inb_S5000x256_S5000x127_0_129 k0_pay3 _ y
        (ix2 (⟨(y 0).val, (y 0).isLt⟩ : Fin 5000) (⟨(y 1).val - 129, by omega⟩ : Fin 127)) rfl
        (Fin.forall_fin_two.mpr ⟨(Nat.zero_add _).symm, by show (y 1).val = 129 + ((y 1).val - 129); omega⟩)]
      unfold k0_pay3 onesZeros
      rw [if_neg h', shapeCast_self]
      rfl

/-- The one store of any other point, read back at one index: the rows `w` under columns `< 128`, what the buffer
    held elsewhere. -/
theorem read_rows_over (v : View sig .tc .vmem S5000x256 .bf16) (f : v.ty.Contents (Elt F))
    (w : Vec F S5000x128 .bf16) (y : S5000x256.Idx) :
    v.read (Elt F) (v.writes (Elt F) f [⟨Rect.unit ![0, 0] S5000x128.size inb_S5000x256_S5000x128_0_0, w⟩]) y
      = if h : (y 1).val < 128 then w (ix2 (⟨(y 0).val, (y 0).isLt⟩ : Fin 5000) (⟨(y 1).val, h⟩ : Fin 128))
        else v.read (Elt F) f y := by
  by_cases h : (y 1).val < 128
  · rw [dif_pos h]
    exact View.read_writes_cons_unit_of_mem v f inb_S5000x256_S5000x128_0_0 w _ y
      (ix2 (⟨(y 0).val, (y 0).isLt⟩ : Fin 5000) (⟨(y 1).val, h⟩ : Fin 128)) rfl
      (Fin.forall_fin_two.mpr ⟨(Nat.zero_add _).symm, (Nat.zero_add _).symm⟩)
  · rw [dif_neg h]
    rw [View.read_writes_cons_unit_of_not_mem v f inb_S5000x256_S5000x128_0_0 w _ y rfl (1 : Fin 2)
      (Or.inr (by show 0 + 128 ≤ (y 1).val; omega))]
    rfl

/-- The whole right operand loaded after the three stores of a point that starts a half. -/
theorem readCov_rows_ones_zeros (v : View sig .tc .vmem S5000x256 .bf16) (x : Vec F S5000x128 .f32) :
    v.readCov
      [⟨Rect.unit ![0, 0] S5000x128.size inb_S5000x256_S5000x128_0_0, k0_pay4 x⟩,
       ⟨Rect.unit ![0, 129] S5000x127.size inb_S5000x256_S5000x127_0_129, k0_pay3⟩,
       ⟨Rect.unit ![0, 128] S5000x1.size inb_S5000x256_S5000x1_0_128, k0_pay2⟩]
      (Rect.unit ![0, 0] S5000x256.size inb_S5000x256_S5000x256_0_0).toLoadRect = rhsOf x := by
  unfold View.readCov
  rw [View.readAt_eq_ld, View.ld_unit_zero (S := S5000x256) hz2]
  funext y
  rw [read_rows_ones_zeros]
  rfl

/-- The right operand, held at `xs`, after the one store of any other point. -/
theorem read_rows_over_unread (a5 : Memref sig .tc .vmem S5000x256 .bf16) (h5 : a5.IsWhole)
    (x : Vec F S5000x128 .f32) (xs : Vec F S5000x256 .bf16) :
    a5.view.read (Elt F) (a5.view.writes (Elt F) (h5.unread xs)
      [⟨Rect.unit ![0, 0] S5000x128.size inb_S5000x256_S5000x128_0_0, k0_pay4 x⟩]) = rhsOver x xs := by
  funext y
  rw [read_rows_over, h5.read_unread]
  rfl

/-! ## The two cases -/

/-- CASE A, the right operand: its three stores tile it — rows, ones column, zeros. -/
theorem sout_A (c : Dev nD) (i : grid0.Coords) (a2 : Memref sig .tc .vmem S5000x128 .f32) (h2 : a2.IsWhole)
    (a3 : Memref sig .tc .vmem S1x1x5000 .i32) (h3 : a3.IsWhole) (a4 : Memref sig .tc .vmem S1x1024x256 .f32) (h4 : a4.IsWhole)
    (a5 : Memref sig .tc .vmem S5000x256 .bf16) (h5 : a5.IsWhole) (hc : cond0_0 i)
    (x0 : Vec F S5000x128 .f32) (x1 : Vec F S1x1x5000 .i32) :
    sout0_A_0 c i a2 h2 a3 h3 a4 h4 a5 h5 hc x0 x1 = rhsOf x0 := by
  unfold sout0_A_0
  unfold kernelRun0_A
  dsimp only
  sl_unfold_words
  simp only [View.readAt_eq_ld, h2.read_unread, View.ld_unit_zero (S := S5000x128) hz2]
  funext y
  rw [read_rows_ones_zeros]
  rfl

/-- CASE A, the accumulator: the zero block plus the product over the freshly written right operand. -/
theorem out_A (c : Dev nD) (i : grid0.Coords) (a2 : Memref sig .tc .vmem S5000x128 .f32) (h2 : a2.IsWhole)
    (a3 : Memref sig .tc .vmem S1x1x5000 .i32) (h3 : a3.IsWhole) (a4 : Memref sig .tc .vmem S1x1024x256 .f32) (h4 : a4.IsWhole)
    (a5 : Memref sig .tc .vmem S5000x256 .bf16) (h5 : a5.IsWhole) (hc : cond0_0 i)
    (x0 : Vec F S5000x128 .f32) (x1 : Vec F S1x1x5000 .i32) :
    out0_A_2 c i a2 h2 a3 h3 a4 h4 a5 h5 hc x0 x1 = k0_pay5 x1 (rhsOf x0) (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1024x256) hz3]
  simp only [View.readAt_eq_ld, h2.read_unread, h3.read_unread, View.ld_unit_zero (S := S5000x128) hz2,
    View.ld_unit_zero (S := S1x1x5000) hz3, View.readCov_unit_zero (S := S1x1024x256) _ hz3]
  exact congrArg (fun r => k0_pay5 x1 r (k0_pay1 (F := F))) (readCov_rows_ones_zeros a5.view x0)

/-- CASE B, the right operand: what the point before left, its row columns overwritten. -/
theorem sout_B (c : Dev nD) (i : grid0.Coords) (a2 : Memref sig .tc .vmem S5000x128 .f32) (h2 : a2.IsWhole)
    (a3 : Memref sig .tc .vmem S1x1x5000 .i32) (h3 : a3.IsWhole) (a4 : Memref sig .tc .vmem S1x1024x256 .f32) (h4 : a4.IsWhole)
    (a5 : Memref sig .tc .vmem S5000x256 .bf16) (h5 : a5.IsWhole) (hc : ¬cond0_0 i)
    (x0 : Vec F S5000x128 .f32) (x1 : Vec F S1x1x5000 .i32) (xo2 : Vec F S1x1024x256 .f32) (xs0 : Vec F S5000x256 .bf16) :
    sout0_B_0 c i a2 h2 a3 h3 a4 h4 a5 h5 hc x0 x1 xo2 xs0 = rhsOver x0 xs0 := by
  unfold sout0_B_0
  unfold kernelRun0_B
  dsimp only
  sl_unfold_words
  simp only [View.readAt_eq_ld, h2.read_unread, View.ld_unit_zero (S := S5000x128) hz2]
  exact read_rows_over_unread a5 h5 x0 xs0

/-- CASE B, the accumulator: what the point before left plus the product over the updated right operand. -/
theorem out_B (c : Dev nD) (i : grid0.Coords) (a2 : Memref sig .tc .vmem S5000x128 .f32) (h2 : a2.IsWhole)
    (a3 : Memref sig .tc .vmem S1x1x5000 .i32) (h3 : a3.IsWhole) (a4 : Memref sig .tc .vmem S1x1024x256 .f32) (h4 : a4.IsWhole)
    (a5 : Memref sig .tc .vmem S5000x256 .bf16) (h5 : a5.IsWhole) (hc : ¬cond0_0 i)
    (x0 : Vec F S5000x128 .f32) (x1 : Vec F S1x1x5000 .i32) (xo2 : Vec F S1x1024x256 .f32) (xs0 : Vec F S5000x256 .bf16) :
    out0_B_2 c i a2 h2 a3 h3 a4 h4 a5 h5 hc x0 x1 xo2 xs0 = k0_pay5 x1 (rhsOver x0 xs0) xo2 := by
  unfold out0_B_2
  rw [View.read_writes_eq_canon _ _ _ (cover0_B_2 c i a2 h2 a3 h3 a4 h4 a5 h5 hc x0 x1 xo2 xs0)]
  unfold kernelRun0_B
  dsimp only
  sl_unfold_words
  rw [View.canon_unit_zero (S := S1x1024x256) hz3]
  simp only [View.readAt_eq_ld, h2.read_unread, h3.read_unread, h4.read_unread, View.ld_unit_zero (S := S5000x128) hz2,
    View.ld_unit_zero (S := S1x1x5000) hz3, View.ld_unit_zero (S := S1x1024x256) hz3,
    View.ld_unit_zero (S := S5000x256) hz2]
  exact congrArg (fun r => k0_pay5 x1 r xo2) (read_rows_over_unread a5 h5 x0 xs0)

end Cert.KernelIdeal.KerValue

end
-- ==== Proof.KerChain.lean ====
import proofs.«420075_j88776974008411_3_alg».proof.Proof.KerPieces

/-!
# The accumulator point by point

After grid point `n` the accumulator block holds the running sum of its half's products so far, started afresh at
the first point of each half (`n ≡ 0 mod 100`), and the right operand holds point `n`'s rows beside the ones
column and the zeros. The result array's half `h` is what point `100 h + 99` leaves.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KerValue

open Cert.KernelIdeal Cert.KernelIdeal.Gen

variable {F : FTy → Type} [FloatOps F]
variable (m : (ℓ : Loc nD τ sig) → Buf (Elt F) ℓ)

/-- Point `t`'s block of rows and block of label words, at their literal types. -/
abbrev xblk (c : Dev nD) (t : Fin cfg0.N) : Vec F S5000x128 .f32 := iblk m c 0 t
abbrev lblk (c : Dev nD) (t : Fin cfg0.N) : Vec F S1x1x5000 .i32 := iblk m c 1 t

/-- The running sum after point `n`: restarted from the zero block where a half starts. -/
def chain (c : Dev nD) : (n : ℕ) → n < cfg0.N → Vec F S1x1024x256 .f32
  | 0, h => k0_pay5 (lblk m c ⟨0, h⟩) (rhsOf (xblk m c ⟨0, h⟩)) (k0_pay1 (F := F))
  | n + 1, h =>
    if (n + 1) % 100 = 0 then k0_pay5 (lblk m c ⟨n + 1, h⟩) (rhsOf (xblk m c ⟨n + 1, h⟩)) (k0_pay1 (F := F))
    else k0_pay5 (lblk m c ⟨n + 1, h⟩) (rhsOf (xblk m c ⟨n + 1, h⟩)) (chain c n (Nat.lt_of_succ_lt h))

theorem lastPoint_lt (h : Fin 2) : 100 * h.val + 99 < cfg0.N := by
  rw [show cfg0.N = 200 from N_0]; omega

/-- The result array: half `h` is the running sum after that half's last point. -/
def arr (c : Dev nD) : Vec F S2x1024x256 .f32 :=
  fun y => chain m c (100 * (y 0).val + 99) (lastPoint_lt ⟨(y 0).val, (y 0).isLt⟩)
    (ix3 (0 : Fin 1) (⟨(y 1).val, (y 1).isLt⟩ : Fin 1024) (⟨(y 2).val, (y 2).isLt⟩ : Fin 256))

/-- A point that starts a half: the zero block plus its product, beside its right operand. -/
theorem outsAt_start (c : Dev nD) (t : Fin cfg0.N) (h0 : t.val % 100 = 0) :
    outsAt0 m c t.val t.isLt
      = (k0_pay5 (lblk m c t) (rhsOf (xblk m c t)) (k0_pay1 (F := F)), rhsOf (xblk m c t)) :=
  (outsAt0_A m c t h0).trans (congrArg₂ Prod.mk
    (out_A (F := F) c (grid0.coords t) (ms0_0 t) (hs0_0 t) (ms0_1 t) (hs0_1 t) (ms0_2 t) (hs0_2 t) scM0_0
      (Memref.isWhole_whole _) ((hcond0_0 t).mpr h0) (xblk m c t) (lblk m c t))
    (sout_A (F := F) c (grid0.coords t) (ms0_0 t) (hs0_0 t) (ms0_1 t) (hs0_1 t) (ms0_2 t) (hs0_2 t) scM0_0
      (Memref.isWhole_whole _) ((hcond0_0 t).mpr h0) (xblk m c t) (lblk m c t)))

/-- Any other point, the point before having left `acc` beside the right operand of rows `x'`: `acc` plus this
    point's product, beside this point's right operand. -/
theorem outsAt_step (c : Dev nD) (t : Fin cfg0.N) (h0 : ¬t.val % 100 = 0)
    (acc : Vec F S1x1024x256 .f32) (x' : Vec F S5000x128 .f32)
    (ih : outsAt0 m c (t.val - 1) (Nat.lt_of_le_of_lt (Nat.sub_le _ _) t.isLt) = (acc, rhsOf x')) :
    outsAt0 m c t.val t.isLt
      = (k0_pay5 (lblk m c t) (rhsOf (xblk m c t)) acc, rhsOf (xblk m c t)) := by
  rw [outsAt0_B m c t h0, ih]
  dsimp only
  refine congrArg₂ Prod.mk
    ((out_B (F := F) c (grid0.coords t) (ms0_0 t) (hs0_0 t) (ms0_1 t) (hs0_1 t) (ms0_2 t) (hs0_2 t) scM0_0
      (Memref.isWhole_whole _) (fun h => h0 ((hcond0_0 t).mp h)) (xblk m c t) (lblk m c t) acc (rhsOf x')).trans ?_)
    ((sout_B (F := F) c (grid0.coords t) (ms0_0 t) (hs0_0 t) (ms0_1 t) (hs0_1 t) (ms0_2 t) (hs0_2 t) scM0_0
      (Memref.isWhole_whole _) (fun h => h0 ((hcond0_0 t).mp h)) (xblk m c t) (lblk m c t) acc (rhsOf x')).trans
      (rhsOver_rhsOf (xblk m c t) x'))
  rw [rhsOver_rhsOf]

/-- What the accumulator block and the right operand hold after point `n`, by induction on the point. -/
theorem outsAt_eq (c : Dev nD) : ∀ (n : ℕ) (h : n < cfg0.N),
    outsAt0 m c n h = (chain m c n h, rhsOf (xblk m c ⟨n, h⟩))
  | 0, h => outsAt_start m c ⟨0, h⟩ (Nat.zero_mod _)
  | n + 1, h => by
    by_cases h0 : (n + 1) % 100 = 0
    · refine (outsAt_start m c ⟨n + 1, h⟩ h0).trans ?_
      rw [chain, if_pos h0]
    · refine (outsAt_step m c ⟨n + 1, h⟩ h0 (chain m c n (Nat.lt_of_succ_lt h)) (xblk m c ⟨n, Nat.lt_of_succ_lt h⟩)
        (outsAt_eq c n (Nat.lt_of_succ_lt h))).trans ?_
      rw [chain, if_neg h0]

end Cert.KernelIdeal.KerValue

end
-- ==== Proof.KerArr.lean ====
import proofs.«420075_j88776974008411_3_alg».proof.Proof.KerChain

/-!
# The result array after the run

The accumulator block is written back twice, after the last point of each half; half `h` of the
`2 × 1024 × 256` result array is that write-back, and the two together cover the array.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KerValue

open Cert.KernelIdeal Cert.KernelIdeal.Gen

variable {F : FTy → Type} [FloatOps F]
variable (m : (ℓ : Loc nD τ sig) → Buf (Elt F) ℓ)

/-- The result window's block index at every grid point `t`: block `(t / 100, 0, 0)`. -/
theorem outIndex : ∀ t : Fin cfg0.N, win0_2.index t (0 : Fin 3) = t.val / 100
    ∧ win0_2.index t (1 : Fin 3) = 0 ∧ win0_2.index t (2 : Fin 3) = 0 :=
  (by decide +kernel : ∀ t : Fin grid0.N, _)

/-- The running sum read at equal points and equal indices. -/
theorem chain_apply_congr (c : Dev nD) (n n' : ℕ) (h : n < cfg0.N) (h' : n' < cfg0.N) (y y' : S1x1024x256.Idx)
    (en : n = n') (ey : y = y') : chain m c n h y = chain m c n' h' y' := by
  subst en ey; rfl

/-- What a point that writes back — the last of its half — writes is its block of the result array. -/
theorem flushed_eq (c : Dev nD) (t : Fin cfg0.N) (hf : (cfg0.win 2).flush t = true) :
    (dats m 0 c).flushed 2 t = ((cfg0.win 2).blk t).view.read (Elt F) (arr m c) := by
  have h99 : t.val % 100 = 99 := (flush0_2 t).mp hf
  show (cfg0.win 2).cut (grid0.coords t) ((dats m 0 c).after 2 t) = _
  rw [after0_2, outsAt_eq]
  obtain ⟨e0, e1, e2⟩ := outIndex t
  funext j
  have hj0 : (j 0).val < 1 := (j 0).isLt
  have hj1 : (j 1).val < 1024 := (j 1).isLt
  have hj2 : (j 2).val < 256 := (j 2).isLt
  show chain m c t.val t.isLt ((cfg0.win 2).xinj (grid0.coords t) j)
    = arr m c (((cfg0.win 2).blk t).view.emb j)
  have c0 : ((((cfg0.win 2).blk t).view.emb j) 0).val = win0_2.index t (0 : Fin 3) * 1 + 1 * (j 0).val := rfl
  have c1 : ((((cfg0.win 2).blk t).view.emb j) 1).val = win0_2.index t (1 : Fin 3) * 1024 + 1 * (j 1).val := rfl
  have c2 : ((((cfg0.win 2).blk t).view.emb j) 2).val = win0_2.index t (2 : Fin 3) * 256 + 1 * (j 2).val := rfl
  unfold arr
  refine chain_apply_congr m c _ _ _ _ _ _ ?_ ?_
  · rw [c0, e0]; omega
  · funext a
    apply Fin.ext
    match a with
    | ⟨0, _⟩ => show (j 0).val = 0; omega
    | ⟨1, _⟩ => show (j 1).val = ((((cfg0.win 2).blk t).view.emb j) 1).val; rw [c1, e1]; omega
    | ⟨2, _⟩ => show (j 2).val = ((((cfg0.win 2).blk t).view.emb j) 2).val; rw [c2, e2]; omega

/-- An index of the result array is in point `t`'s block iff each coordinate is in the block's range on its axis. -/
theorem mem_blk (t : Fin cfg0.N) (i : S2x1024x256.Idx) :
    i ∈ ((cfg0.win 2).blk t).view.set ↔ ∀ a : Fin 3, win0_2.index t a * S1x1024x256.size a ≤ (i a).val
      ∧ (i a).val < win0_2.index t a * S1x1024x256.size a + S1x1024x256.size a := by
  show i ∈ ((View.whole main_v1).slice (win0_2.rect t)).set ↔ _
  rw [View.set_slice_whole, Rect.mem_set_unit]
  exact Iff.rfl

/-- The result array ends holding, in half `h`, the running sum after point `100 h + 99`. -/
theorem final (c : Dev nD) : (dats m 0 c).arrAt 2 cfg0.N = arr m c :=
  (dats m 0 c).arrAt_eq_of_cover 2 (arr m c) (flushed_eq m c) fun i => by
    have hi0 : (i 0).val < 2 := (i 0).isLt
    have hi1 : (i 1).val < 1024 := (i 1).isLt
    have hi2 : (i 2).val < 256 := (i 2).isLt
    have ht : 100 * (i 0).val + 99 < cfg0.N := by rw [show cfg0.N = 200 from N_0]; omega
    obtain ⟨e0, e1, e2⟩ := outIndex ⟨100 * (i 0).val + 99, ht⟩
    refine ⟨⟨100 * (i 0).val + 99, ht⟩, (flush0_2 _).mpr (by show (100 * (i 0).val + 99) % 100 = 99; omega), ?_⟩
    rw [mem_blk]
    intro a
    match a with
    | ⟨0, _⟩ =>
      show win0_2.index ⟨100 * (i 0).val + 99, ht⟩ (0 : Fin 3) * 1 ≤ (i 0).val
        ∧ (i 0).val < win0_2.index ⟨100 * (i 0).val + 99, ht⟩ (0 : Fin 3) * 1 + 1
      rw [e0]; show (100 * (i 0).val + 99) / 100 * 1 ≤ (i 0).val ∧ (i 0).val < (100 * (i 0).val + 99) / 100 * 1 + 1
      omega
    | ⟨1, _⟩ =>
      show win0_2.index ⟨100 * (i 0).val + 99, ht⟩ (1 : Fin 3) * 1024 ≤ (i 1).val
        ∧ (i 1).val < win0_2.index ⟨100 * (i 0).val + 99, ht⟩ (1 : Fin 3) * 1024 + 1024
      rw [e1]; omega
    | ⟨2, _⟩ =>
      show win0_2.index ⟨100 * (i 0).val + 99, ht⟩ (2 : Fin 3) * 256 ≤ (i 2).val
        ∧ (i 2).val < win0_2.index ⟨100 * (i 0).val + 99, ht⟩ (2 : Fin 3) * 256 + 256
      rw [e2]; omega

end Cert.KernelIdeal.KerValue

end
-- ==== Proof.Spec.lean ====
import Idealize.ShloMosaic.Lib.ValueIdx
import Idealize.ShloMosaic.PureOps.Ideal
import Idealize.ShloMosaic.PureOps.Contract

/-!
# What both programs compute

`N = 1 000 000` rows of `128` numbers, each row carrying an integer label word. For a class `v < 1000`
the CLASS SUM is the sum of the rows whose label, read as a signed integer, equals `v`; the CLASS COUNT
is the number of such rows; the class MEAN is their quotient on the extended reals. Everything after the
means (a variance over the classes with `ddof = 1`, its mean over the 128 columns, a negation) is one
function `tail` of the `1000 × 128` array of means, the same text in both programs.

The kernel reaches the class sums another way: the rows are cut into `2 × 100` blocks of `5000`; in each
block a `5000 × 1024` one-hot matrix (entry `(r, k)` is `1` when row `r`'s label word IS the word `k`)
is multiplied, transposed, into the `5000 × 256` matrix whose columns `0 … 127` are the block's rows,
column `128` is all ones and the rest zero; the products are added up over the `100` blocks of each
half, and the two halves are added. Rows `≥ 1000` and columns `> 128` of that table are thrown away.
-/

noncomputable section

open scoped BigOperators

namespace Cert.Spec

open Idealize.ShloMosaic Idealize.ShloMosaic.ValueIdx

/-! ## Shapes -/

abbrev SEmb : Shape := ⟨2, ![1000000, 128]⟩
abbrev SLab : Shape := ⟨1, ![1000000]⟩
abbrev SMeans : Shape := ⟨2, ![1000, 128]⟩
abbrev SAcc : Shape := ⟨3, ![2, 1024, 256]⟩
abbrev S128 : Shape := ⟨1, ![128]⟩
abbrev S1x128 : Shape := ⟨2, ![1, 128]⟩
abbrev S_ : Shape := ⟨0, ![]⟩

/-! ## The class sums, counts and means -/

/-- The sum of column `k` over the rows whose label word, read signed, is `v`. -/
def classSum (emb : FVec Ideal SEmb .f32) (lab : IVec SLab 32) (v : Fin 1000) (k : Fin 128) : EReal :=
  ∑ e ∈ Finset.univ.filter (fun e : Fin 1000000 => (lab (ix1 e)).toInt = (v.val : ℤ)), emb (ix2 e k)

/-- The number of rows whose label word, read signed, is `v`, as an extended real. -/
def classCount (lab : IVec SLab 32) (v : Fin 1000) : EReal :=
  ∑ _e ∈ Finset.univ.filter (fun e : Fin 1000000 => (lab (ix1 e)).toInt = (v.val : ℤ)), (1 : EReal)

/-- The class means: sum over count, the quotient of the extended reals (`Ideal.div`). -/
def means (emb : FVec Ideal SEmb .f32) (lab : IVec SLab 32) : FVec Ideal SMeans .f32 :=
  fun i => Ideal.div (classSum emb lab ⟨(i 0).val, (i 0).isLt⟩ ⟨(i 1).val, (i 1).isLt⟩)
    (classCount lab ⟨(i 0).val, (i 0).isLt⟩)

theorem means_apply (emb : FVec Ideal SEmb .f32) (lab : IVec SLab 32) (v : Fin 1000) (k : Fin 128) :
    means emb lab (ix2 v k) = Ideal.div (classSum emb lab v k) (classCount lab v) := rfl

/-! ## The kernel's table: blocks, one-hot weights, the packed right operand -/

/-- Row `r` of block `i` of half `h` is row `(100 h + i) · 5000 + r` of the input. -/
def row (h : Fin 2) (i : Fin 100) (r : Fin 5000) : Fin 1000000 :=
  ⟨(h.val * 100 + i.val) * 5000 + r.val, by have := h.isLt; have := i.isLt; have := r.isLt; omega⟩

/-- The one-hot weight: `1` when the label word is the word of class `k`, else `0`. -/
def oh (w : BitVec 32) (k : Fin 1024) : EReal := if w = BitVec.ofNat 32 k.val then 1 else 0

/-- The packed right operand at input row `e`: the row itself in columns `0 … 127`, `1` in column `128`,
    `0` beyond. -/
def rhsAt (emb : FVec Ideal SEmb .f32) (e : Fin 1000000) (j : Fin 256) : EReal :=
  if h : j.val < 128 then emb (ix2 e ⟨j.val, h⟩) else if j.val = 128 then 1 else 0

/-- One half's table entry: over its 100 blocks, over the block's 5000 rows, weight times right operand. -/
def coreSum (emb : FVec Ideal SEmb .f32) (lab : IVec SLab 32) (h : Fin 2) (k : Fin 1024) (j : Fin 256) : EReal :=
  ∑ i : Fin 100, ∑ r : Fin 5000, oh (lab (ix1 (row h i r))) k * rhsAt emb (row h i r) j

/-- The two halves' tables as one `2 × 1024 × 256` array. -/
def kerAcc (emb : FVec Ideal SEmb .f32) (lab : IVec SLab 32) : FVec Ideal SAcc .f32 :=
  fun y => coreSum emb lab ⟨(y 0).val, (y 0).isLt⟩ ⟨(y 1).val, (y 1).isLt⟩ ⟨(y 2).val, (y 2).isLt⟩

theorem kerAcc_apply (emb : FVec Ideal SEmb .f32) (lab : IVec SLab 32) (h : Fin 2) (k : Fin 1024) (j : Fin 256) :
    kerAcc emb lab (ix3 h k j) = coreSum emb lab h k j := rfl

/-- What the kernel's host lines make of a `2 × 1024 × 256` table `A` at class `v`, column `k`: the halves
    added, entry `(v, k)` over entry `(v, 128)`. -/
def kerMeansAt (A : FVec Ideal SAcc .f32) (v : Fin 1000) (k : Fin 128) : EReal :=
  Ideal.div
    (A (ix3 (0 : Fin 2) (⟨v.val, by omega⟩ : Fin 1024) (⟨k.val, by omega⟩ : Fin 256))
      + A (ix3 (1 : Fin 2) (⟨v.val, by omega⟩ : Fin 1024) (⟨k.val, by omega⟩ : Fin 256)))
    (A (ix3 (0 : Fin 2) (⟨v.val, by omega⟩ : Fin 1024) (128 : Fin 256))
      + A (ix3 (1 : Fin 2) (⟨v.val, by omega⟩ : Fin 1024) (128 : Fin 256)))

/-- The same as a `1000 × 128` array: rows `≥ 1000` and columns `> 128` of the table are not read. -/
def kerMeans (A : FVec Ideal SAcc .f32) : FVec Ideal SMeans .f32 :=
  fun i => kerMeansAt A ⟨(i 0).val, (i 0).isLt⟩ ⟨(i 1).val, (i 1).isLt⟩

theorem kerMeans_apply (A : FVec Ideal SAcc .f32) (v : Fin 1000) (k : Fin 128) :
    kerMeans A (ix2 v k) = kerMeansAt A v k := rfl

/-! ## The shared tail -/

theorem red_means : SMeans.ReducesTo [0] S128 := by decide
theorem pos_S_ : 0 < S_.numel := by decide
theorem bc_128_1x128 : S128.BroadcastsInDim S1x128 (![1] : Fin 1 → Fin S1x128.rank) := by decide
theorem bc_S_1x128 : S_.BroadcastsInDim S1x128 (![] : Fin 0 → Fin S1x128.rank) := by decide
theorem bc_1x128_means : S1x128.BroadcastsInDim SMeans (![0, 1] : Fin 2 → Fin SMeans.rank) := by decide
theorem bc_S_128 : S_.BroadcastsInDim S128 (![] : Fin 0 → Fin S128.rank) := by decide
theorem red_128 : S128.ReducesTo [0] S_ := by decide

/-- Everything both programs do to the array of class means: the column means over the 1000 classes, the squared
    deviations summed and divided by `1000 − 1` (kept where that divisor is positive, which it is), the 128
    variances summed, divided by 128, negated. The operations in the order both programs print them. -/
def tail (x : FVec Ideal SMeans .f32) : FVec Ideal S_ .f32 :=
  let colSum : FVec Ideal S128 .f32 := Host.reduceAdd x (constant S_ .f32 0x00000000#32) red_means pos_S_
  let colMean : FVec Ideal S1x128 .f32 :=
    Host.divf (broadcastInDim S1x128 ![1] bc_128_1x128 colSum)
      (broadcastInDim S1x128 ![] bc_S_1x128 (constant S_ .f32 0x447A0000#32))
  let dev : FVec Ideal SMeans .f32 := subf x (broadcastInDim SMeans ![0, 1] bc_1x128_means colMean)
  let sq : FVec Ideal SMeans .f32 := mulf dev dev
  let dof : FVec Ideal S_ .f32 := subf (constant S_ .f32 0x447A0000#32) (sitofp .f32 (constantI S_ 32 1#32))
  let var : FVec Ideal S128 .f32 :=
    Host.divf (Host.reduceAdd sq (constant S_ .f32 0x00000000#32) red_means pos_S_)
      (broadcastInDim S128 ![] bc_S_128 dof)
  let pos : IVec S_ 1 := cmpf .ogt dof (constant S_ .f32 0x00000000#32)
  let kept : FVec Ideal S128 .f32 :=
    select (broadcastInDim S128 ![] bc_S_128 pos) var
      (broadcastInDim S128 ![] bc_S_128 (id (constant S_ .f32 0x7FC00000#32)))
  Host.negf (Host.divf (Host.reduceAdd kept (constant S_ .f32 0x00000000#32) red_128 pos_S_)
    (constant S_ .f32 0x43000000#32))

end Cert.Spec

end
-- ==== Proof.KerSum.lean ====
import proofs.«420075_j88776974008411_3_alg».proof.Proof.KerChain
import proofs.«420075_j88776974008411_3_alg».proof.Proof.Spec
import Idealize.ShloMosaic.PureOps.Ideal.Laws
import Idealize.ShloMosaic.Lib.ValueLayout

/-!
# The result array, entry by entry, on the extended reals

Entry `(h, k, j)` of the result array is the sum over the 100 blocks of half `h` and over each block's 5000
rows of the one-hot weight of the row's label at class `k` times the packed right operand's entry `j` at that row.

The steps: one point's update read at an entry (the accumulator there plus the sum over the block's rows of the
one-hot weight times the right operand); the right operand read at an entry (the row, then `1`, then `0`); the
blocks of rows and of label words read through their windows (row `5000 t + r` of the inputs at point `t`); and an
induction over the points of a half, the running sum after block `i` being the sum of the shares of blocks `0 … i`.
-/

set_option maxRecDepth 16384

noncomputable section

open Idealize.ShloMosaic Idealize.ShloMosaic.TcCoe Idealize.SL.Sem
open Idealize.ShloMosaic.ValueIdx
open scoped BigOperators

namespace Cert.KernelIdeal.KerValue

open Cert.KernelIdeal Cert.KernelIdeal.Gen

variable (m : (ℓ : Loc nD τ sig) → Buf (Elt Ideal) ℓ)

namespace TableEntry

/-! ## One point's update at an entry -/

/-- The matrix product's dimension numbers: both operands contract their row axis. -/
abbrev rowDot := dot_S5000x1024_S5000x256_S1024x256_0_0_1_1_n_n

theorem lhsRowDot_0 (j : S1024x256.Idx) (k : rowDot.contr.Idx) : (rowDot.lhsIdx j k 0 : ℕ) = k ⟨0, by decide⟩ := by
  simp [DotDims.lhsIdx, rowDot, dot_S5000x1024_S5000x256_S1024x256_0_0_1_1_n_n]; rfl
theorem lhsRowDot_1 (j : S1024x256.Idx) (k : rowDot.contr.Idx) : (rowDot.lhsIdx j k 1 : ℕ) = j 0 := by
  simp [DotDims.lhsIdx, rowDot, dot_S5000x1024_S5000x256_S1024x256_0_0_1_1_n_n]; rfl
theorem rhsRowDot_0 (j : S1024x256.Idx) (k : rowDot.contr.Idx) : (rowDot.rhsIdx j k 0 : ℕ) = k ⟨0, by decide⟩ := by
  simp [DotDims.rhsIdx, rowDot, dot_S5000x1024_S5000x256_S1024x256_0_0_1_1_n_n]; rfl
theorem rhsRowDot_1 (j : S1024x256.Idx) (k : rowDot.contr.Idx) : (rowDot.rhsIdx j k 1 : ℕ) = j 1 := by
  simp [DotDims.rhsIdx, rowDot, dot_S5000x1024_S5000x256_S1024x256_0_0_1_1_n_n]; rfl

/-- A comparison bit widened and read as a signed integer is `1` when the words are equal and `0` otherwise. -/
theorem eqBit_toReal (w v : BitVec 32) :
    (((((IntOp.cmpi .eq w v).setWidth 32).toInt : ℝ)) : EReal) = if w = v then 1 else 0 := by
  by_cases h : w = v
  · subst h; simp [IntOp.cmpi]
  · have hb : (w == v) = false := by simpa using h
    simp [IntOp.cmpi, h, hb]

/-- A column broadcast along rows reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot matrix of a block of label words, entry `(r, k)`. -/
theorem onehot_apply (x1 : Vec Ideal S1x1x5000 .i32) (r : Fin 5000) (k : Fin 1024) :
    (truncf (F := Ideal) FTy.bf16
          (sitofp FTy.f32
            (extui 32
              (cmpi CmpIPredicate.eq
                (broadcastTo S5000x1024
                  (transpose S5000x1 [1, 0]
                    (shapeCast S1x5000 (shapeCast S1x1x5000 x1 shapeCasts_S1x1x5000_S1x1x5000)
                      shapeCasts_S1x1x5000_S1x5000)
                    transposes_S1x5000_p1_0_S5000x1)
                  broadcasts_S5000x1_S5000x1024)
                (broadcastTo S5000x1024 (iota Kind.tc S1x1024 32 [1] iota_S1x1024_d1_w32)
                  broadcasts_S1x1024_S5000x1024))
              natLt_1_32))
          bitsLt_bf16_f32) (ix2 r k) = Cert.Spec.oh (x1 (ix3 (0 : Fin 1) (0 : Fin 1) r)) k := by
  rw [truncf_apply, sitofp_apply, extui_apply]
  show (((((IntOp.cmpi .eq _ _).setWidth 32).toInt : ℝ)) : EReal) = _
  rw [eqBit_toReal, broadcastTo_a1_ab_apply, transpose_ix2_apply, shapeCast_1ab_ab_apply, shapeCast_self,
    broadcastTo_1b_ab_apply, iota_single_apply]
  rfl

theorem pay5_apply (x1 : Vec Ideal S1x1x5000 .i32) (s : Vec Ideal S5000x256 .bf16) (acc : Vec Ideal S1x1024x256 .f32)
    (k : Fin 1024) (j : Fin 256) :
    k0_pay5 x1 s acc (ix3 (0 : Fin 1) k j)
      = acc (ix3 (0 : Fin 1) k j) + ∑ r : Fin 5000, Cert.Spec.oh (x1 (ix3 (0 : Fin 1) (0 : Fin 1) r)) k * s (ix2 r j) := by
  unfold k0_pay5
  dsimp only
  rw [addf_apply, shapeCast_self, shapeCast_ab_1ab_apply]
  congr 1
  simp only [matmul]
  rw [Ideal.matmul_constant_zero_apply, ← Equiv.sum_comp (contrEquiv1 rowDot 5000 rfl rfl).symm]
  refine Finset.sum_congr rfl fun r _ => ?_
  have c := contrEquiv1_symm_val rowDot 5000 rfl rfl r
  have hl : rowDot.lhsIdx (ix2 k j) ((contrEquiv1 rowDot 5000 rfl rfl).symm r) = ix2 r k :=
    Shape.idx_ext₂ ((lhsRowDot_0 _ _).trans c) (lhsRowDot_1 _ _)
  have hr : rowDot.rhsIdx (ix2 k j) ((contrEquiv1 rowDot 5000 rfl rfl).symm r) = ix2 r j :=
    Shape.idx_ext₂ ((rhsRowDot_0 _ _).trans c) (rhsRowDot_1 _ _)
  rw [hl, hr, onehot_apply]

/-! ## The right operand and the zero block at an entry -/

theorem bf16_one : (Scalar.ofBits (F := Ideal) .bf16 0x3F80#16 : Ideal .bf16) = (1 : EReal) := by
  show Ideal.ofBits .bf16 0x3F80#16 = 1
  simp [Ideal.ofBits, Ideal.ieee]
  rw [← EReal.coe_mul]
  norm_num
theorem bf16_zero : (Scalar.ofBits (F := Ideal) .bf16 0x0000#16 : Ideal .bf16) = (0 : EReal) := by
  show Ideal.ofBits .bf16 0x0000#16 = 0
  simp [Ideal.ofBits, Ideal.ieee]

/-- The right operand of a point: the block's rows in columns `0 … 127`, `1` in column `128`, `0` beyond. -/
theorem rhsOf_apply (x : Vec Ideal S5000x128 .f32) (r : Fin 5000) (j : Fin 256) :
    rhsOf x (ix2 r j) = if h : j.val < 128 then x (ix2 r ⟨j.val, h⟩) else if j.val = 128 then (1 : EReal) else 0 := by
  unfold rhsOf rhsOver onesZeros
  show (if h : j.val < 128 then k0_pay4 x (ix2 (⟨r.val, r.isLt⟩ : Fin 5000) (⟨j.val, h⟩ : Fin 128))
    else if j.val = 128 then (Scalar.ofBits (F := Ideal) .bf16 0x3F80#16 : Ideal .bf16) else (Scalar.ofBits (F := Ideal) .bf16 0x0000#16 : Ideal .bf16)) = _
  rw [bf16_one, bf16_zero]
  by_cases h : j.val < 128
  · rw [dif_pos h, dif_pos h]
    unfold k0_pay4
    rw [shapeCast_self, truncf_apply]
  · rw [dif_neg h, dif_neg h]

/-- The zero block a half starts from. -/
theorem pay1_apply (y : S1x1024x256.Idx) : (k0_pay1 (F := Ideal)) y = (0 : EReal) := by
  unfold k0_pay1
  show Ideal.ofBits .f32 0x00000000#32 = 0
  exact Ideal.ofBits_zero_f32

/-! ## The blocks of rows and of label words -/

/-- Where point `t`'s block of rows and block of label words sit in their arrays: block `t` of each. -/
theorem rowsWindow_index : ∀ t : Fin cfg0.N, win0_0.index t 0 = t.val ∧ win0_0.index t 1 = 0 :=
  (by decide +kernel : ∀ t : Fin grid0.N, win0_0.index t 0 = t.val ∧ win0_0.index t 1 = 0)
theorem labelsWindow_index : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Point `t`'s block of rows, entry `(r, j)`, is the input's row `5000 t + r` at column `j`. -/
theorem xblk_apply (c : Dev nD) (t : Fin cfg0.N) (r : Fin 5000) (j : Fin 128) (e : Fin 1000000)
    (he : e.val = t.val * 5000 + r.val) :
    xblk m c t (ix2 r j) = m ((c.tc : Thread nD τ).loc main_arg0) (ix2 e j) := by
  have hi := rowsWindow_index t
  unfold xblk iblk
  rw [View.read_apply]
  show V m c main_arg0 _ = _
  rw [V_main_arg0]
  congr 1
  funext a
  apply Fin.ext
  match a with
  | ⟨0, _⟩ => show win0_0.index t 0 * 5000 + 1 * r.val = e.val; rw [hi.1, he]; omega
  | ⟨1, _⟩ => show win0_0.index t 1 * 128 + 1 * j.val = j.val; rw [hi.2]; omega

/-- The array of label words as the region finds it: the input's words, reshaped to `200 × 1 × 5000`. -/
theorem V_labels (c : Dev nD) :
    (V m c main_v0 : S200x1x5000.Idx → BitVec 32)
      = shapeCast S200x1x5000 (m ((c.tc : Thread nD τ).loc main_arg1)) shapeCasts_S1000000_S200x1x5000 := by
  dsimp only [Gen.V, Gen.V0]
  simp only [Gen.hostOps0, List.flatten_cons, List.flatten_nil, List.append_nil]
  after_results
  rfl

/-- Point `t`'s block of label words, entry `r`, is the input's word `5000 t + r`. -/
theorem lblk_apply (c : Dev nD) (t : Fin cfg0.N) (r : Fin 5000) (e : Fin 1000000)
    (he : e.val = t.val * 5000 + r.val) :
    lblk m c t (ix3 (0 : Fin 1) (0 : Fin 1) r) = m ((c.tc : Thread nD τ).loc main_arg1) (ix1 e) := by
  have hi := labelsWindow_index t
  have ht : t.val < 200 := lt_of_lt_of_eq t.isLt (show cfg0.N = 200 from N_0)
  unfold lblk iblk
  rw [View.read_apply]
  show V m c main_v0 _ = _
  rw [V_labels]
  refine shapeCast_apply _ _ _ (ix1 e) ?_
  rw [Shape.rowMajor_val_one, Shape.rowMajor_val_three]
  show e.val = ((win0_1.index t 0 * 1 + 1 * 0) * 1 + (win0_1.index t 1 * 1 + 1 * 0)) * 5000 + (win0_1.index t 2 * 5000 + 1 * r.val)
  rw [hi.1, hi.2.1, hi.2.2, he]
  omega

/-! ## The running sum over the blocks of a half -/

/-- One block's share of a table entry: over its 5000 rows, weight times right operand. -/
def blockTerm (emb : FVec Ideal Cert.Spec.SEmb .f32) (lab : IVec Cert.Spec.SLab 32) (h : Fin 2) (i : Fin 100)
    (k : Fin 1024) (j : Fin 256) : EReal :=
  ∑ r : Fin 5000, Cert.Spec.oh (lab (ix1 (Cert.Spec.row h i r))) k * Cert.Spec.rhsAt emb (Cert.Spec.row h i r) j

/-- The same over a natural block number, `0` past the last block. -/
def blockTermN (emb : FVec Ideal Cert.Spec.SEmb .f32) (lab : IVec Cert.Spec.SLab 32) (h : Fin 2) (i : ℕ)
    (k : Fin 1024) (j : Fin 256) : EReal :=
  if hi : i < 100 then blockTerm emb lab h ⟨i, hi⟩ k j else 0

/-- What point `100 h + i` adds to entry `(k, j)`: block `i` of half `h`'s share. -/
theorem point_term (c : Dev nD) (t : Fin cfg0.N) (h : Fin 2) (i : Fin 100) (ht : t.val = 100 * h.val + i.val)
    (k : Fin 1024) (j : Fin 256) :
    ∑ r : Fin 5000, Cert.Spec.oh (lblk m c t (ix3 (0 : Fin 1) (0 : Fin 1) r)) k * rhsOf (xblk m c t) (ix2 r j)
      = blockTerm (m ((c.tc : Thread nD τ).loc main_arg0)) (m ((c.tc : Thread nD τ).loc main_arg1)) h i k j := by
  unfold blockTerm
  refine Finset.sum_congr rfl fun r _ => ?_
  have he : (Cert.Spec.row h i r).val = t.val * 5000 + r.val := by
    show (h.val * 100 + i.val) * 5000 + r.val = _
    rw [ht]; ring
  rw [lblk_apply m c t r _ he, rhsOf_apply]
  unfold Cert.Spec.rhsAt
  by_cases hj : j.val < 128
  · rw [dif_pos hj, dif_pos hj, xblk_apply m c t r _ _ he]
  · rw [dif_neg hj, dif_neg hj]

/-- The running sum where a half starts. -/
theorem chain_start (c : Dev nD) (n : ℕ) (hn : n < cfg0.N) (h0 : n % 100 = 0) :
    chain m c n hn = k0_pay5 (lblk m c ⟨n, hn⟩) (rhsOf (xblk m c ⟨n, hn⟩)) (k0_pay1 (F := Ideal)) := by
  cases n with
  | zero => rw [chain]
  | succ n => rw [chain, if_pos h0]

/-- The running sum inside a half. -/
theorem chain_step (c : Dev nD) (n : ℕ) (hn : n + 1 < cfg0.N) (h0 : ¬(n + 1) % 100 = 0) :
    chain m c (n + 1) hn
      = k0_pay5 (lblk m c ⟨n + 1, hn⟩) (rhsOf (xblk m c ⟨n + 1, hn⟩)) (chain m c n (Nat.lt_of_succ_lt hn)) := by
  rw [chain, if_neg h0]

/-- After point `100 h + i` entry `(k, j)` of the running sum is the sum of the shares of blocks `0 … i` of half `h`. -/
theorem chain_apply (c : Dev nD) (h : Fin 2) (k : Fin 1024) (j : Fin 256) :
    ∀ (i : ℕ) (hi : i < 100) (n : ℕ) (hn : n < cfg0.N), n = 100 * h.val + i →
      chain m c n hn (ix3 (0 : Fin 1) k j)
        = ∑ i' ∈ Finset.range (i + 1),
            blockTermN (m ((c.tc : Thread nD τ).loc main_arg0)) (m ((c.tc : Thread nD τ).loc main_arg1)) h i' k j := by
  intro i
  induction i with
  | zero =>
    intro hi n hn e
    rw [chain_start m c n hn (by omega), pay5_apply, pay1_apply, zero_add,
      point_term m c ⟨n, hn⟩ h ⟨0, hi⟩ (by simpa using e) k j, Finset.sum_range_one, blockTermN, dif_pos hi]
  | succ i ih =>
    intro hi n hn e
    obtain ⟨n', rfl⟩ : ∃ n', n = n' + 1 := ⟨100 * h.val + i, by omega⟩
    rw [chain_step m c n' hn (by omega), pay5_apply, ih (by omega) n' _ (by omega),
      point_term m c ⟨n' + 1, hn⟩ h ⟨i + 1, hi⟩ (by simpa using e) k j, Finset.sum_range_succ _ (i + 1),
      blockTermN, dif_pos hi]

end TableEntry

open TableEntry in
/-- The result array is the table of the two halves' sums over the launch contents of the two arguments. -/
theorem arr_eq (c : Dev nD) :
    arr (F := Ideal) m c
      = Cert.Spec.kerAcc (m ((c.tc : Thread nD τ).loc main_arg0)) (m ((c.tc : Thread nD τ).loc main_arg1)) := by
  funext y
  obtain ⟨h, k, j, rfl⟩ : ∃ (h : Fin 2) (k : Fin 1024) (j : Fin 256), y = ix3 h k j := ⟨y 0, y 1, y 2, eq_ix3 y⟩
  rw [Cert.Spec.kerAcc_apply]
  show chain m c (100 * h.val + 99) _ (ix3 (0 : Fin 1) k j) = _
  rw [chain_apply m c h k j 99 (by omega) _ _ rfl, Finset.sum_range]
  unfold Cert.Spec.coreSum
  refine Finset.sum_congr rfl fun i _ => ?_
  rw [blockTermN, dif_pos i.isLt]
  rfl

end Cert.KernelIdeal.KerValue

end
-- ==== Proof.KerTail.lean ====
import proofs.«420075_j88776974008411_3_alg».proof.Proof.Gen.KernelIdeal.Frame
import proofs.«420075_j88776974008411_3_alg».proof.Proof.Spec
import Idealize.ShloMosaic.Lib.Pipeline.Value
import Idealize.ShloMosaic.Lib.ValueLayout
import Idealize.ShloMosaic.Lib.StableHlo.Run
import Idealize.ShloMosaic.Lib.Tactic

/-!
# The host lines after the region

From the `2 × 1024 × 256` result array the host lines take the two halves, add them, keep rows `< 1000`, divide
columns `< 128` by column `128`, and apply the shared tail.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KerValue

open Cert.KernelIdeal Cert.KernelIdeal.Gen

/-! ## The first eleven lines: from the table to the quotients -/

/-- The two halves of the table added: a `1024 × 256` table. -/
def halvesSum (X : FVec Ideal S2x1024x256 .f32) : FVec Ideal S1024x256 .f32 :=
  addf
    (fun i => shapeCast S1024x256
      (extractStridedSlice S1x1024x256 ![0, 0, 0] X Gen.slices_S2x1024x256_S1x1024x256_0_0_0)
      Gen.shapeCasts_S1x1024x256_S1024x256 i)
    (fun i => shapeCast S1024x256
      (extractStridedSlice S1x1024x256 ![1, 0, 0] X Gen.slices_S2x1024x256_S1x1024x256_1_0_0)
      Gen.shapeCasts_S1x1024x256_S1024x256 i)

/-- Rows `< 1000`, columns `< 128` of the added table, each divided by its row's entry in column `128`. -/
def hostMeans (X : FVec Ideal S2x1024x256 .f32) : FVec Ideal S1000x128 .f32 :=
  Host.divf
    (extractStridedSlice S1000x128 ![0, 0] (halvesSum X) Gen.slices_S1024x256_S1000x128_0_0)
    (broadcastInDim S1000x128 ![0, 1] Gen.bcast_S1000x1_S1000x128_0_1
      (broadcastInDim S1000x1 ![0] Gen.bcast_S1000_S1000x1_0
        (fun i => shapeCast S1000
          (extractStridedSlice S1000x1 ![0, 128] (halvesSum X) Gen.slices_S1024x256_S1000x1_0_128)
          Gen.shapeCasts_S1000x1_S1000 i)))

/-- The added table at row `r`, column `j`: the two halves' entries there, added. -/
theorem halvesSum_apply (X : FVec Ideal S2x1024x256 .f32) (r : Fin 1024) (j : Fin 256) :
    halvesSum X (ix2 r j) = X (ix3 (0 : Fin 2) r j) + X (ix3 (1 : Fin 2) r j) := by
  unfold halvesSum
  rw [addf_apply]
  refine congrArg₂ (· + ·) ?_ ?_
  · refine (shapeCast_1ab_ab_apply _ _ r j).trans ?_
    exact extractStridedSlice_apply _ _ _ _ (ix3 (0 : Fin 2) r j) (fun a => match a with
      | ⟨0, _⟩ => by show 0 = 0 + 0; rfl
      | ⟨1, _⟩ => by show r.val = 0 + r.val; omega
      | ⟨2, _⟩ => by show j.val = 0 + j.val; omega)
  · refine (shapeCast_1ab_ab_apply _ _ r j).trans ?_
    exact extractStridedSlice_apply _ _ _ _ (ix3 (1 : Fin 2) r j) (fun a => match a with
      | ⟨0, _⟩ => by show 1 = 1 + 0; rfl
      | ⟨1, _⟩ => by show r.val = 0 + r.val; omega
      | ⟨2, _⟩ => by show j.val = 0 + j.val; omega)

/-- The quotients at class `v`, column `k`. -/
theorem hostMeans_apply (X : FVec Ideal S2x1024x256 .f32) (v : Fin 1000) (k : Fin 128) :
    hostMeans X (ix2 v k)
      = Ideal.div (halvesSum X (ix2 (⟨v.val, by omega⟩ : Fin 1024) (⟨k.val, by omega⟩ : Fin 256)))
          (halvesSum X (ix2 (⟨v.val, by omega⟩ : Fin 1024) (128 : Fin 256))) := by
  unfold hostMeans
  refine congrArg₂ Ideal.div ?_ ?_
  · exact extractStridedSlice_apply _ _ _ _ (ix2 (⟨v.val, by omega⟩ : Fin 1024) (⟨k.val, by omega⟩ : Fin 256)) (fun a => match a with
      | ⟨0, _⟩ => by show v.val = 0 + v.val; omega
      | ⟨1, _⟩ => by show k.val = 0 + k.val; omega)
  · refine (broadcastInDim_apply _ _ _ (ix2 v k) (ix2 v (0 : Fin 1)) (fun a => match a with
      | ⟨0, _⟩ => rfl
      | ⟨1, _⟩ => rfl)).trans ?_
    refine (broadcastInDim_apply _ _ _ (ix2 v (0 : Fin 1)) (ix1 v) (fun a => match a with
      | ⟨0, _⟩ => rfl)).trans ?_
    refine (shapeCast_apply _ _ (ix1 v) (ix2 v (0 : Fin 1)) (by
      rw [Shape.rowMajor_val_two, Shape.rowMajor_val_one]
      show v.val * 1 + 0 = v.val
      omega)).trans ?_
    exact extractStridedSlice_apply _ _ _ _ (ix2 (⟨v.val, by omega⟩ : Fin 1024) (128 : Fin 256)) (fun a => match a with
      | ⟨0, _⟩ => by show v.val = 0 + v.val; omega
      | ⟨1, _⟩ => by show 128 = 128 + 0; rfl)

/-- The first eleven lines compute the means read off the table. -/
theorem hostMeans_eq (A : FVec Ideal S2x1024x256 .f32) : hostMeans A = Cert.Spec.kerMeans A := by
  funext i
  obtain ⟨v, k, rfl⟩ : ∃ (v : Fin 1000) (k : Fin 128), i = ix2 v k := ⟨i 0, i 1, eq_ix2 i⟩
  rw [hostMeans_apply, halvesSum_apply, halvesSum_apply]
  rfl

variable (m : (ℓ : Loc nD τ sig) → Buf (Elt Ideal) ℓ)

/-! ## The lines as a whole -/

/-- From any contents `W` of the buffers, the thirty-nine lines leave in their last value the shared tail of the
    quotients read off what `W` holds in the result array. -/
theorem after_lines (W : Valuation τ sig (Elt Ideal)) :
    StableHlo.after (List.flatten [hostOps1, hostOps1_1, hostOps1_2]) W (Proc.devRef .tc main_v16)
      = Cert.Spec.tail (hostMeans (W (Proc.devRef .tc main_v1))) := by
  simp only [hostOps1, hostOps1_1, hostOps1_2, List.flatten_cons, List.flatten_nil, List.append_nil, List.cons_append,
    List.nil_append]
  after_results_simp
  rfl

/-- The program's result, given the result array `A` of the region: the shared tail of the means read off `A`. -/
theorem tail_eq (c : Dev nD) (A : Vec Ideal S2x1024x256 .f32) (hA : (dats m 0 c).arrAt 2 cfg0.N = A) :
    Pipeline.afterTail₀ cfgs (dats m) 0 (V0 m) [hostOps1, hostOps1_1, hostOps1_2] c main_v16
      = Cert.Spec.tail (Cert.Spec.kerMeans A) := by
  unfold Pipeline.afterTail₀
  refine (after_lines _).trans ?_
  rw [← hostMeans_eq]
  exact congrArg (fun X => Cert.Spec.tail (hostMeans X))
    ((Pipeline.withArrays_arr spec0 launch0.win.arr_inj c _ _ 2).trans hA)

end Cert.KernelIdeal.KerValue

end
-- ==== Proof.Algebra.lean ====
import proofs.«420075_j88776974008411_3_alg».proof.Proof.Spec
import Mathlib.Algebra.BigOperators.Group.Finset.Basic
import Mathlib.Algebra.BigOperators.Fin
import Mathlib.Data.Fintype.BigOperators

/-!
# The blocked one-hot sums are the class sums

For a class `v < 1000` the weight of a row is `1` exactly when its label word read signed equals `v`; a sum of
weight times entry over all `2 × 100 × 5000` block rows is the sum of the entries over those rows of the
`1 000 000`; column `128` of the packed right operand is `1`, so it counts them.
-/

noncomputable section

open scoped BigOperators

namespace Cert.Spec

open Idealize.ShloMosaic Idealize.ShloMosaic.ValueIdx

/-! ## A label word and its signed reading -/

/-- A 32-bit word is the word of a class `v < 1000` exactly when, read as a signed integer, it is `v`:
    such a `v` is below `2 ^ 31`, so its word has the sign bit clear and reads back as `v`, and a word
    with the sign bit set reads as a negative number. -/
theorem word_eq_iff (w : BitVec 32) (v : ℕ) (hv : v < 1000) :
    w = BitVec.ofNat 32 v ↔ w.toInt = (v : ℤ) := by
  have hw := w.isLt
  rw [BitVec.toInt_eq_toNat_cond, ← BitVec.toNat_inj, BitVec.toNat_ofNat]
  split <;> omega

/-! ## Block coordinates and row numbers -/

/-- Block coordinates `(h, i, r)` and row numbers `(100 h + i) · 5000 + r` correspond one to one: the row number
    `e` has `h = e / 500000`, `i = e / 5000 mod 100`, `r = e mod 5000`. -/
def rowEquiv : Fin 2 × Fin 100 × Fin 5000 ≃ Fin 1000000 where
  toFun p := row p.1 p.2.1 p.2.2
  invFun e :=
    (⟨e.val / 500000, by have := e.isLt; omega⟩, ⟨e.val / 5000 % 100, by omega⟩, ⟨e.val % 5000, by omega⟩)
  left_inv p := by
    obtain ⟨h, i, r⟩ := p
    have := h.isLt; have := i.isLt; have := r.isLt
    refine Prod.ext (Fin.ext ?_) (Prod.ext (Fin.ext ?_) (Fin.ext ?_)) <;> simp only [row] <;> omega
  right_inv e := by
    have := e.isLt
    apply Fin.ext
    simp only [row]
    omega

/-- A sum over the blocks' rows, half by half and block by block, is the sum over all the rows. -/
theorem sum_blocks {M : Type*} [AddCommMonoid M] (f : Fin 1000000 → M) :
    ∑ h : Fin 2, ∑ i : Fin 100, ∑ r : Fin 5000, f (row h i r) = ∑ e : Fin 1000000, f e := by
  rw [← Fintype.sum_equiv rowEquiv (fun p => f (row p.1 p.2.1 p.2.2)) f (fun _ => rfl)]
  simp only [Fintype.sum_prod_type]

/-- The two halves' table entries add up to one sum over all the rows. -/
theorem coreSum_halves (emb : FVec Ideal SEmb .f32) (lab : IVec SLab 32) (k : Fin 1024) (j : Fin 256) :
    coreSum emb lab 0 k j + coreSum emb lab 1 k j
      = ∑ e : Fin 1000000, oh (lab (ix1 e)) k * rhsAt emb e j := by
  rw [← sum_blocks (fun e => oh (lab (ix1 e)) k * rhsAt emb e j), Fin.sum_univ_two]
  rfl

/-! ## A one-hot weighted sum is a sum over the class -/

/-- For a class `v < 1000`, the weight is `1` on the rows of the class and `0` elsewhere, and `1 · x = x`,
    `0 · x = 0` for every extended real `x`: the weighted sum is the sum over the rows of the class. -/
theorem sum_oh (lab : IVec SLab 32) (v : Fin 1000) (g : Fin 1000000 → EReal) :
    ∑ e : Fin 1000000, oh (lab (ix1 e)) (⟨v.val, by omega⟩ : Fin 1024) * g e
      = ∑ e ∈ Finset.univ.filter (fun e : Fin 1000000 => (lab (ix1 e)).toInt = (v.val : ℤ)), g e := by
  rw [Finset.sum_filter]
  refine Finset.sum_congr rfl fun e _ => ?_
  unfold oh
  by_cases h : (lab (ix1 e)).toInt = (v.val : ℤ)
  · rw [if_pos ((word_eq_iff _ _ v.isLt).2 h), if_pos h, one_mul]
  · rw [if_neg (fun h' => h ((word_eq_iff _ _ v.isLt).1 h')), if_neg h, zero_mul]

/-- Columns `0 … 127` of the packed right operand are the row itself. -/
theorem rhsAt_lt (emb : FVec Ideal SEmb .f32) (e : Fin 1000000) (k : Fin 128) :
    rhsAt emb e (⟨k.val, by omega⟩ : Fin 256) = emb (ix2 e k) := by
  unfold rhsAt
  rw [dif_pos k.isLt]

/-- Column `128` of the packed right operand is `1`. -/
theorem rhsAt_128 (emb : FVec Ideal SEmb .f32) (e : Fin 1000000) :
    rhsAt emb e (128 : Fin 256) = 1 := by
  unfold rhsAt
  rw [dif_neg (by decide), if_pos (by decide)]

/-! ## The two table columns that are read -/

/-- Entry `(v, k)` of the two halves added, for a class `v < 1000` and a column `k < 128`, is the class sum. -/
theorem halves_classSum (emb : FVec Ideal SEmb .f32) (lab : IVec SLab 32) (v : Fin 1000) (k : Fin 128) :
    coreSum emb lab 0 (⟨v.val, by omega⟩ : Fin 1024) (⟨k.val, by omega⟩ : Fin 256)
        + coreSum emb lab 1 (⟨v.val, by omega⟩ : Fin 1024) (⟨k.val, by omega⟩ : Fin 256)
      = classSum emb lab v k := by
  rw [coreSum_halves, sum_oh]
  exact Finset.sum_congr rfl fun e _ => rhsAt_lt emb e k

/-- Entry `(v, 128)` of the two halves added, for a class `v < 1000`, is the class count. -/
theorem halves_classCount (emb : FVec Ideal SEmb .f32) (lab : IVec SLab 32) (v : Fin 1000) :
    coreSum emb lab 0 (⟨v.val, by omega⟩ : Fin 1024) (128 : Fin 256)
        + coreSum emb lab 1 (⟨v.val, by omega⟩ : Fin 1024) (128 : Fin 256)
      = classCount lab v := by
  rw [coreSum_halves, sum_oh]
  exact Finset.sum_congr rfl fun e _ => rhsAt_128 emb e

/-! ## The means -/

/-- The means the kernel's host lines read off its table are the class means. -/
theorem kerMeans_kerAcc (emb : FVec Ideal SEmb .f32) (lab : IVec SLab 32) :
    kerMeans (kerAcc emb lab) = means emb lab := by
  funext i
  obtain ⟨v, k, rfl⟩ : ∃ (v : Fin 1000) (k : Fin 128), i = ix2 v k := ⟨i 0, i 1, eq_ix2 i⟩
  rw [kerMeans_apply, means_apply, kerMeansAt]
  simp only [kerAcc_apply]
  rw [halves_classSum, halves_classCount]

end Cert.Spec

end
-- ==== Proof.KerValue.lean ====
import proofs.«420075_j88776974008411_3_alg».proof.Proof.KerArr
import proofs.«420075_j88776974008411_3_alg».proof.Proof.KerSum
import proofs.«420075_j88776974008411_3_alg».proof.Proof.KerTail
import proofs.«420075_j88776974008411_3_alg».proof.Proof.Algebra

/-!
# The kernel's run, read

The region leaves the table of the two halves' one-hot sums in the result array; the host lines after it turn the
table into the class means and apply the shared tail. So the program ends with its result at the shared tail of the
class means of its arguments, and the arguments as launched.
-/

noncomputable section

open Idealize.ShloMosaic Idealize.ShloMosaic.TcCoe Idealize.SL.Sem
open Idealize.ShloMosaic.Pipeline (Dat)

namespace Cert.KernelIdeal.KerValue

open Cert.KernelIdeal Cert.KernelIdeal.Gen

/-- The program's result is the shared tail of the class means: the table read by the host lines (`tail_eq`) is the
    table of one-hot sums (`final`, `arr_eq`), whose means are the class means (`kerMeans_kerAcc`). -/
theorem result_eq (m : (ℓ : Loc nD τ sig) → Buf (Elt Ideal) ℓ) (c : Dev nD) :
    Pipeline.afterTail₀ cfgs (dats m) 0 (V0 m) [hostOps1, hostOps1_1, hostOps1_2] c main_v16
      = Cert.Spec.tail (Cert.Spec.means (m ((c.tc : Thread nD τ).loc main_arg0)) (m ((c.tc : Thread nD τ).loc main_arg1))) := by
  rw [tail_eq m c (arr m c) (final m c), arr_eq m c, Cert.Spec.kerMeans_kerAcc]

/-- Every weakly fair execution of the kernel's program terminates with its result at the shared tail of the class means
    of the launch contents of its arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
        = Cert.Spec.tail (Cert.Spec.means (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v16 (Pipeline.mem_restRefs_of main_v16 (by decide) (by decide))).trans (result_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KerValue

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.RefRun.lean ====
import proofs.«420075_j88776974008411_3_alg».proof.Proof.Gen.ReferenceIdeal
import Idealize.ShloMosaic.Lib.StableHlo.Run

/-!
# The reference as one straight line

The reference's `@main` calls the variance function, which calls the selection function. Inlined at the calls
they are one line of `41` operations: fourteen of `@main` (the two scatters, the quotient), the twenty-two of
the variance (its last three the selection's), and five more of `@main` (the sum over the columns, the division by
`128`, the negation). The run of that line leaves the result buffer at the composed term `out` of the two arguments.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The class sums as the reference prints them: the rows scattered, adding, into a table of zeros at their labels. -/
def sums (emb : FVec F S1000000x128 .f32) (lab : IVec S1000000 32) : FVec F S1000x128 .f32 :=
  Host.scatterAdd scatter_S1000x128_S1000000x1_S1000000x128_1_0_0_1
    (broadcastInDim S1000x128 ![] bcast_S_S1000x128 (constant S_ .f32 0x00000000#32))
    (broadcastInDim S1000000x1 ![0] bcast_S1000000_S1000000x1_0 lab) emb

/-- The class counts as the reference prints them: a vector of ones scattered, adding, into zeros at the labels. -/
def counts (lab : IVec S1000000 32) : FVec F S1000 .f32 :=
  Host.scatterAdd scatter_S1000_S1000000x1_S1000000_n_0_0_1
    (broadcastInDim S1000 ![] bcast_S_S1000 (constant S_ .f32 0x00000000#32))
    (broadcastInDim S1000000x1 ![0] bcast_S1000000_S1000000x1_0 lab)
    (broadcastInDim S1000000 ![] bcast_S_S1000000 (constant (F := F) S_ .f32 0x3F800000#32))

/-- The class means as the reference prints them: the sums over the counts repeated along the columns. -/
def means (emb : FVec F S1000000x128 .f32) (lab : IVec S1000000 32) : FVec F S1000x128 .f32 :=
  Host.divf (sums emb lab)
    (broadcastInDim S1000x128 ![0, 1] bcast_S1000x1_S1000x128_0_1
      (broadcastInDim S1000x1 ![0] bcast_S1000_S1000x1_0 (counts (F := F) lab)))

/-- Everything the reference does to the class means, in the order it prints it: the column means, the squared
    deviations summed and divided by `1000 − 1`, kept where that divisor is positive, summed, divided by `128`,
    negated. -/
def tail (x : FVec F S1000x128 .f32) : FVec F S_ .f32 :=
  Host.negf (Host.divf
    (Host.reduceAdd
      (select
        (broadcastInDim S128 ![] bcast_S_S128
          (cmpf .ogt (subf (constant (F := F) S_ .f32 0x447A0000#32) (sitofp .f32 (constantI S_ 32 1#32)))
            (constant S_ .f32 0x00000000#32)))
        (Host.divf
          (Host.reduceAdd
            (mulf
              (subf x (broadcastInDim S1000x128 ![0, 1] bcast_S1x128_S1000x128_0_1
                (Host.divf
                  (broadcastInDim S1x128 ![1] bcast_S128_S1x128_1
                    (Host.reduceAdd x (constant S_ .f32 0x00000000#32) reducesTo_S1000x128_S128_d0 h_S_))
                  (broadcastInDim S1x128 ![] bcast_S_S1x128 (constant S_ .f32 0x447A0000#32)))))
              (subf x (broadcastInDim S1000x128 ![0, 1] bcast_S1x128_S1000x128_0_1
                (Host.divf
                  (broadcastInDim S1x128 ![1] bcast_S128_S1x128_1
                    (Host.reduceAdd x (constant S_ .f32 0x00000000#32) reducesTo_S1000x128_S128_d0 h_S_))
                  (broadcastInDim S1x128 ![] bcast_S_S1x128 (constant S_ .f32 0x447A0000#32))))))
            (constant S_ .f32 0x00000000#32) reducesTo_S1000x128_S128_d0 h_S_)
          (broadcastInDim S128 ![] bcast_S_S128
            (subf (constant S_ .f32 0x447A0000#32) (sitofp .f32 (constantI S_ 32 1#32)))))
        (broadcastInDim S128 ![] bcast_S_S128 (id (constant S_ .f32 0x7FC00000#32))))
      (constant S_ .f32 0x00000000#32) reducesTo_S128_S_d0 h_S_)
    (constant S_ .f32 0x43000000#32))

/-- The reference's result as one term of its two arguments. -/
def out (emb : FVec F S1000000x128 .f32) (lab : IVec S1000000 32) : FVec F S_ .f32 :=
  tail (means emb lab)

/-! ## The line -/

/-- The `41` operations, in order, the calls inlined over the buffers of their records. -/
abbrev ops : List (HloOp τ sig (Elt F)) :=
  [ nullary main_cst (constant S_ .f32 0x00000000#32),
    unary main_cst main_v0 (broadcastInDim S1000x128 ![] bcast_S_S1000x128 : (⟨S_, .f32⟩ : BufTy).Contents (Elt F) → (⟨S1000x128, .f32⟩ : BufTy).Contents (Elt F)),
    unary main_arg1 main_v1 (broadcastInDim S1000000x1 ![0] bcast_S1000000_S1000000x1_0 : (⟨S1000000, .i32⟩ : BufTy).Contents (Elt F) → (⟨S1000000x1, .i32⟩ : BufTy).Contents (Elt F)),
    ternary main_v0 main_v1 main_arg0 main_v2 ((fun x i u => Host.scatterAdd scatter_S1000x128_S1000000x1_S1000000x128_1_0_0_1 x i u) : (⟨S1000x128, .f32⟩ : BufTy).Contents (Elt F) → (⟨S1000000x1, .i32⟩ : BufTy).Contents (Elt F) → (⟨S1000000x128, .f32⟩ : BufTy).Contents (Elt F) → (⟨S1000x128, .f32⟩ : BufTy).Contents (Elt F)),
    nullary main_cst_0 (constant S_ .f32 0x3F800000#32),
    unary main_cst_0 main_v3 (broadcastInDim S1000000 ![] bcast_S_S1000000 : (⟨S_, .f32⟩ : BufTy).Contents (Elt F) → (⟨S1000000, .f32⟩ : BufTy).Contents (Elt F)),
    nullary main_cst_1 (constant S_ .f32 0x00000000#32),
    unary main_cst_1 main_v4 (broadcastInDim S1000 ![] bcast_S_S1000 : (⟨S_, .f32⟩ : BufTy).Contents (Elt F) → (⟨S1000, .f32⟩ : BufTy).Contents (Elt F)),
    unary main_arg1 main_v5 (broadcastInDim S1000000x1 ![0] bcast_S1000000_S1000000x1_0 : (⟨S1000000, .i32⟩ : BufTy).Contents (Elt F) → (⟨S1000000x1, .i32⟩ : BufTy).Contents (Elt F)),
    ternary main_v4 main_v5 main_v3 main_v6 ((fun x i u => Host.scatterAdd scatter_S1000_S1000000x1_S1000000_n_0_0_1 x i u) : (⟨S1000, .f32⟩ : BufTy).Contents (Elt F) → (⟨S1000000x1, .i32⟩ : BufTy).Contents (Elt F) → (⟨S1000000, .f32⟩ : BufTy).Contents (Elt F) → (⟨S1000, .f32⟩ : BufTy).Contents (Elt F)),
    unary main_v6 main_v7 (broadcastInDim S1000x1 ![0] bcast_S1000_S1000x1_0 : (⟨S1000, .f32⟩ : BufTy).Contents (Elt F) → (⟨S1000x1, .f32⟩ : BufTy).Contents (Elt F)),
    unary main_v7 main_v8 (broadcastInDim S1000x128 ![0, 1] bcast_S1000x1_S1000x128_0_1 : (⟨S1000x1, .f32⟩ : BufTy).Contents (Elt F) → (⟨S1000x128, .f32⟩ : BufTy).Contents (Elt F)),
    binary main_v2 main_v8 main_v9 (Host.divf : (⟨S1000x128, .f32⟩ : BufTy).Contents (Elt F) → (⟨S1000x128, .f32⟩ : BufTy).Contents (Elt F) → (⟨S1000x128, .f32⟩ : BufTy).Contents (Elt F)),
    nullary main_c (constantI S_ 32 1#32),
    TRef.nullary (.of main_call0_cst : TRef sig ⟨S_, .f32⟩) (constant S_ .f32 0x00000000#32),
    TRef.binary (.of main_v9 : TRef sig ⟨S1000x128, .f32⟩) (.of main_call0_cst : TRef sig ⟨S_, .f32⟩) (.of main_call0_v0 : TRef sig ⟨S128, .f32⟩) (fun x v => Host.reduceAdd x v reducesTo_S1000x128_S128_d0 h_S_),
    TRef.unary (.of main_call0_v0 : TRef sig ⟨S128, .f32⟩) (.of main_call0_v1 : TRef sig ⟨S1x128, .f32⟩) (broadcastInDim S1x128 ![1] bcast_S128_S1x128_1),
    TRef.nullary (.of main_call0_cst_0 : TRef sig ⟨S_, .f32⟩) (constant S_ .f32 0x447A0000#32),
    TRef.unary (.of main_call0_cst_0 : TRef sig ⟨S_, .f32⟩) (.of main_call0_v2 : TRef sig ⟨S1x128, .f32⟩) (broadcastInDim S1x128 ![] bcast_S_S1x128),
    TRef.binary (.of main_call0_v1 : TRef sig ⟨S1x128, .f32⟩) (.of main_call0_v2 : TRef sig ⟨S1x128, .f32⟩) (.of main_call0_v3 : TRef sig ⟨S1x128, .f32⟩) Host.divf,
    TRef.unary (.of main_call0_v3 : TRef sig ⟨S1x128, .f32⟩) (.of main_call0_v4 : TRef sig ⟨S1000x128, .f32⟩) (broadcastInDim S1000x128 ![0, 1] bcast_S1x128_S1000x128_0_1),
    TRef.binary (.of main_v9 : TRef sig ⟨S1000x128, .f32⟩) (.of main_call0_v4 : TRef sig ⟨S1000x128, .f32⟩) (.of main_call0_v5 : TRef sig ⟨S1000x128, .f32⟩) subf,
    TRef.binary (.of main_call0_v5 : TRef sig ⟨S1000x128, .f32⟩) (.of main_call0_v5 : TRef sig ⟨S1000x128, .f32⟩) (.of main_call0_v6 : TRef sig ⟨S1000x128, .f32⟩) mulf,
    TRef.unary (.of main_c : TRef sig ⟨S_, .i32⟩) (.of main_call0_v7 : TRef sig ⟨S_, .f32⟩) (sitofp .f32),
    TRef.nullary (.of main_call0_cst_1 : TRef sig ⟨S_, .f32⟩) (constant S_ .f32 0x447A0000#32),
    TRef.binary (.of main_call0_cst_1 : TRef sig ⟨S_, .f32⟩) (.of main_call0_v7 : TRef sig ⟨S_, .f32⟩) (.of main_call0_v8 : TRef sig ⟨S_, .f32⟩) subf,
    TRef.nullary (.of main_call0_cst_2 : TRef sig ⟨S_, .f32⟩) (constant S_ .f32 0x00000000#32),
    TRef.binary (.of main_call0_v6 : TRef sig ⟨S1000x128, .f32⟩) (.of main_call0_cst_2 : TRef sig ⟨S_, .f32⟩) (.of main_call0_v9 : TRef sig ⟨S128, .f32⟩) (fun x v => Host.reduceAdd x v reducesTo_S1000x128_S128_d0 h_S_),
    TRef.unary (.of main_call0_v8 : TRef sig ⟨S_, .f32⟩) (.of main_call0_v10 : TRef sig ⟨S128, .f32⟩) (broadcastInDim S128 ![] bcast_S_S128),
    TRef.binary (.of main_call0_v9 : TRef sig ⟨S128, .f32⟩) (.of main_call0_v10 : TRef sig ⟨S128, .f32⟩) (.of main_call0_v11 : TRef sig ⟨S128, .f32⟩) Host.divf,
    TRef.nullary (.of main_call0_cst_3 : TRef sig ⟨S_, .f32⟩) (constant S_ .f32 0x00000000#32),
    TRef.binary (.of main_call0_v8 : TRef sig ⟨S_, .f32⟩) (.of main_call0_cst_3 : TRef sig ⟨S_, .f32⟩) (.of main_call0_v12 : TRef sig ⟨S_, .i1⟩) (cmpf .ogt),
    TRef.nullary (.of main_call0_cst_4 : TRef sig ⟨S_, .f32⟩) (constant S_ .f32 0x7FC00000#32),
    TRef.unary (.of main_call0_cst_4 : TRef sig ⟨S_, .f32⟩) (.of main_call0_call0_v0 : TRef sig ⟨S_, .f32⟩) id,
    TRef.unary (.of main_call0_call0_v0 : TRef sig ⟨S_, .f32⟩) (.of main_call0_call0_v1 : TRef sig ⟨S128, .f32⟩) (broadcastInDim S128 ![] bcast_S_S128),
    TRef.ternary (.of main_call0_v12 : TRef sig ⟨S_, .i1⟩) (.of main_call0_v11 : TRef sig ⟨S128, .f32⟩) (.of main_call0_call0_v1 : TRef sig ⟨S128, .f32⟩) (.of main_v10 : TRef sig ⟨S128, .f32⟩) (fun p a b => select (broadcastInDim S128 ![] bcast_S_S128 p) a b),
    nullary main_cst_2 (constant S_ .f32 0x00000000#32),
    binary main_v10 main_cst_2 main_v11 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    nullary main_cst_3 (constant S_ .f32 0x43000000#32),
    binary main_v11 main_cst_3 main_v12 (Host.divf : (⟨S_, .f32⟩ : BufTy).Contents (Elt F) → (⟨S_, .f32⟩ : BufTy).Contents (Elt F) → (⟨S_, .f32⟩ : BufTy).Contents (Elt F)),
    unary main_v12 main_v13 (Host.negf : (⟨S_, .f32⟩ : BufTy).Contents (Elt F) → (⟨S_, .f32⟩ : BufTy).Contents (Elt F)) ]

set_option maxRecDepth 2048 in
/-- `@main` is that line: the two functions unfolded at their calls, sequencing reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., unary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    nullary_bufs_sub .., binary_bufs_sub .., nullary_bufs_sub .., binary_bufs_sub .., unary_bufs_sub ..⟩

/-- On every device, for any float values, from any memory with zero counters: every weakly fair execution of the
    reference terminates with its result at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v13).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.RefValue.lean ====
import proofs.«420075_j88776974008411_3_alg».proof.Defs
import proofs.«420075_j88776974008411_3_alg».proof.Proof.Gen.ReferenceIdeal
import proofs.«420075_j88776974008411_3_alg».proof.Proof.Spec
import proofs.«420075_j88776974008411_3_alg».proof.Proof.LibScatterGatherRows
import proofs.«420075_j88776974008411_3_alg».proof.Proof.RefRun
import Idealize.ShloMosaic.Lib.StableHlo.Run
import Idealize.ShloMosaic.Lib.Tactic
import Idealize.ShloMosaic.Lib.IdealHost

/-!
# The reference's run

The reference scatters the rows and a vector of ones into `1000` classes by label (an update whose label is no
class is dropped), divides, and applies the shared tail.

Read at class `v`, column `k`: the scatter of the rows into a table of zeros is `0` plus the sum of column `k` over
the rows whose label word, read signed, is `v` — the class sum; the scatter of ones is likewise the class count; the
count is repeated along the columns, so the quotient at `(v, k)` is the class sum over the class count, the class
mean. What the reference then does to the means is, operation for operation, the shared tail.
-/

noncomputable section

open scoped BigOperators
open Idealize.ShloMosaic Idealize.ShloMosaic.TcCoe Idealize.SL.Sem
open Idealize.ShloMosaic.ValueIdx

namespace Cert.ReferenceIdeal.RefValue

open Cert.ReferenceIdeal Cert.ReferenceIdeal.Gen

/-! ## The two scatters and the quotient, read at an index -/

/-- The label column: the `N × 1` table of index words at row `e` is the `e`-th label word. -/
theorem labelColumn_apply (lab : IVec S1000000 32) (e : Fin 1000000) :
    broadcastInDim S1000000x1 ![0] bcast_S1000000_S1000000x1_0 lab (ix2 e 0) = lab (ix1 e) := by
  unfold broadcastInDim
  refine congrArg lab (funext fun a => ?_)
  match a with
  | ⟨0, _⟩ => rfl

/-- The scatter of the rows at `(v, k)` is the class sum: the zero it starts from adds nothing, and an update row
    lands on class `v` exactly when its label word, read signed, is `v`. -/
theorem sums_apply (emb : FVec Ideal S1000000x128 .f32) (lab : IVec S1000000 32) (v : Fin 1000) (k : Fin 128) :
    RefRun.sums (F := Ideal) emb lab (ix2 v k) = Cert.Spec.classSum emb lab v k := by
  unfold RefRun.sums
  rw [Cert.LibScatterGatherRows.scatterAdd_rows scatter_S1000x128_S1000000x1_S1000000x128_1_0_0_1 rfl rfl rfl rfl]
  rw [broadcastInDim_scalar_apply, constant_apply, Ideal.ofBits_zero_f32, zero_add]
  unfold Cert.Spec.classSum
  refine Finset.sum_congr (Finset.filter_congr fun e _ => ?_) (fun _ _ => rfl)
  rw [labelColumn_apply lab e]

/-- The scatter of ones at `v` is the class count: each update is the extended real `1`. -/
theorem counts_apply (lab : IVec S1000000 32) (v : Fin 1000) :
    RefRun.counts (F := Ideal) lab (ix1 v) = Cert.Spec.classCount lab v := by
  unfold RefRun.counts
  rw [Cert.LibScatterGatherRows.scatterAdd_vec scatter_S1000_S1000000x1_S1000000_n_0_0_1 rfl rfl rfl rfl]
  rw [broadcastInDim_scalar_apply, constant_apply, Ideal.ofBits_zero_f32, zero_add]
  unfold Cert.Spec.classCount
  refine Finset.sum_congr (Finset.filter_congr fun e _ => ?_) (fun e _ => ?_)
  · rw [labelColumn_apply lab e]
  · rw [broadcastInDim_scalar_apply, constant_apply, Ideal.ofBits_one_f32]

/-- A vector of `1000` numbers made a column and repeated along `128` columns reads, at `(v, k)`, its `v`-th. -/
theorem columnRepeat_apply (C : FVec Ideal S1000 .f32) (v : Fin 1000) (k : Fin 128) :
    broadcastInDim S1000x128 ![0, 1] bcast_S1000x1_S1000x128_0_1
      (broadcastInDim S1000x1 ![0] bcast_S1000_S1000x1_0 C) (ix2 v k) = C (ix1 v) := by
  unfold broadcastInDim
  refine congrArg C (funext fun a => ?_)
  match a with
  | ⟨0, _⟩ => rfl

/-- The reference's quotient is the array of class means. -/
theorem means_eq (emb : FVec Ideal S1000000x128 .f32) (lab : IVec S1000000 32) :
    RefRun.means (F := Ideal) emb lab = Cert.Spec.means emb lab := by
  funext i
  obtain ⟨v, k, rfl⟩ : ∃ (v : Fin 1000) (k : Fin 128), i = ix2 v k := ⟨i 0, i 1, eq_ix2 i⟩
  rw [Cert.Spec.means_apply]
  unfold RefRun.means
  rw [hostDivf_apply, columnRepeat_apply, sums_apply, counts_apply]

/-- What the reference does to the means is the shared tail: the same operations on the same literal words in the
    same order. -/
theorem tail_eq (x : FVec Ideal S1000x128 .f32) : RefRun.tail (F := Ideal) x = Cert.Spec.tail x := rfl

/-- The reference's result is the shared tail of the class means. -/
theorem out_eq (emb : FVec Ideal S1000000x128 .f32) (lab : IVec S1000000 32) :
    RefRun.out (F := Ideal) emb lab = Cert.Spec.tail (Cert.Spec.means emb lab) := by
  unfold RefRun.out
  rw [means_eq, tail_eq]

/-! ## The run -/

/-- Every weakly fair execution of the reference terminates with its result at the shared tail of the class means of
    the launch contents of its arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13)
        = Cert.Spec.tail (Cert.Spec.means (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c).1.trans (out_eq _ _), (h c).2.1, (h c).2.2⟩)
    (RefRun.run (F := Ideal) m ρ)

end Cert.ReferenceIdeal.RefValue

end
-- ==== Proof.lean ====
/-
  Two programs over `1 000 000` rows of `128` numbers, each row with an integer label: the negated mean over the
  128 columns of the variance, across `1000` classes, of the class means of the rows.

  The reference sums the rows of each class by a scatter-add over the labels (a label that is no class in `[0, 1000)`
  lands nowhere), counts them by a scatter-add of ones, and divides. The kernel cuts the rows into `2 × 100` blocks of
  `5000`; in each block it multiplies the transposed `5000 × 1024` one-hot matrix of the labels into the block's rows
  packed beside a column of ones, adds the products up per half in a carried accumulator, and the host lines after it
  add the two halves, keep the `1000` class rows, and divide the `128` sum columns by the count column. Over the
  extended reals a one-hot weight times an entry is the entry or zero, sums may be regrouped freely, and the blocks
  partition the rows: both tables of means are the same array (`Cert.Spec.means`). What follows the means is the same
  text in both programs (`Cert.Spec.tail`), so it is carried as one function and never opened.

  The three frames: the two kernel programs' are the frame run's; the reference's is its run with the result dropped.
  The ideal pass rewrote nothing, so `preserves` is `True`.
-/
import proofs.«420075_j88776974008411_3_alg».proof.Defs
import proofs.«420075_j88776974008411_3_alg».proof.Proof.Gen.Kernel
import proofs.«420075_j88776974008411_3_alg».proof.Proof.Gen.Kernel.Frame
import proofs.«420075_j88776974008411_3_alg».proof.Proof.Gen.KernelIdeal
import proofs.«420075_j88776974008411_3_alg».proof.Proof.Gen.KernelIdeal.Frame
import proofs.«420075_j88776974008411_3_alg».proof.Proof.Gen.ReferenceIdeal
import proofs.«420075_j88776974008411_3_alg».proof.Proof.Gen.Pre_finite_inputs
import proofs.«420075_j88776974008411_3_alg».proof.Proof.KerValue
import proofs.«420075_j88776974008411_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end at the shared tail of the class means of arguments that agree. -/
theorem algebraic : Cert.algebraic_KernelIdeal_ReferenceIdeal := by
  intro m ρ m' ρ' _ hagree
  refine ⟨fun c => Cert.Spec.tail (Cert.Spec.means
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
